-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096x2048 : Shape := ⟨2, ![4096, 2048]⟩
abbrev S3072x2048 : Shape := ⟨2, ![3072, 2048]⟩
abbrev S2048 : Shape := ⟨1, ![2048]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S3072x2048 : S_.BroadcastsInDim S3072x2048 (![] : Fin 0 → Fin S3072x2048.rank)
  reducesTo_S3072x2048_S_d0_1 : S3072x2048.ReducesTo [0, 1] S_
  bcast_S_S2048 : S_.BroadcastsInDim S2048 (![] : Fin 0 → Fin S2048.rank)
  reducesTo_S2048_S_d0 : S2048.ReducesTo [0] S_

variable [Facts]

def fn_part3 {F : FTy → Type} [FloatOps F] (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  main_v53

def fn_part2 {F : FTy → Type} [FloatOps F] (main_arg7 : FVec F S3072x2048 .f32) (main_arg8 : FVec F S2048 .f32) (main_arg9 : FVec F S3072x2048 .f32) (main_arg10 : FVec F S2048 .f32) (main_v33 : IVec S_ 1) : IVec S_ 1 :=
  let main_v34 : FVec F S3072x2048 .f32 := Host.absf main_arg7
  let main_cst_12 : FVec F S_ .f32 := constant S_ .f32 0x7F800000#32
  let main_v35 : FVec F S3072x2048 .f32 := broadcastInDim S3072x2048 ![] bcast_S_S3072x2048 main_cst_12
  let main_v36 : IVec S3072x2048 1 := cmpf .olt main_v34 main_v35
  let main_c_13 : IVec S_ 1 := constantI S_ 1 1#1
  let main_v37 : IVec S_ 1 := (fun x v => Host.reduce IntOp.andi x v reducesTo_S3072x2048_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S3072x2048 .f32 := Host.absf main_arg9
  let main_cst_16 : FVec F S_ .f32 := constant S_ .f32 0x7F800000#32
  let main_v45 : FVec F S3072x2048 .f32 := broadcastInDim S3072x2048 ![] bcast_S_S3072x2048 main_cst_16
  let main_v46 : IVec S3072x2048 1 := cmpf .olt main_v44 main_v45
  let main_c_17 : IVec S_ 1 := constantI S_ 1 1#1
  let main_v47 : IVec S_ 1 := (fun x v => Host.reduce IntOp.andi x v reducesTo_S3072x2048_S_d0_1 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_v48 main_v49 main_v50

def fn_part1 {F : FTy → Type} [FloatOps F] (main_arg4 : FVec F S2048 .f32) (main_arg5 : FVec F S3072x2048 .f32) (main_arg6 : FVec F S2048 .f32) (main_arg7 : FVec F S3072x2048 .f32) (main_arg8 : FVec F S2048 .f32) (main_arg9 : FVec F S3072x2048 .f32) (main_arg10 : FVec F S2048 .f32) (main_v13 : IVec S_ 1) (main_v16 : IVec S3072x2048 1) : IVec S_ 1 :=
  let main_c_5 : IVec S_ 1 := constantI S_ 1 1#1
  let main_v17 : IVec S_ 1 := (fun x v => Host.reduce IntOp.andi x v reducesTo_S3072x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S3072x2048 .f32 := Host.absf main_arg5
  let main_cst_8 : FVec F S_ .f32 := constant S_ .f32 0x7F800000#32
  let main_v25 : FVec F S3072x2048 .f32 := broadcastInDim S3072x2048 ![] bcast_S_S3072x2048 main_cst_8
  let main_v26 : IVec S3072x2048 1 := cmpf .olt main_v24 main_v25
  let main_c_9 : IVec S_ 1 := constantI S_ 1 1#1
  let main_v27 : IVec S_ 1 := (fun x v => Host.reduce IntOp.andi x v reducesTo_S3072x2048_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S4096x1024 .f32) (main_arg1 : FVec F S4096x2048 .f32) (main_arg2 : FVec F S4096x2048 .f32) (main_arg3 : FVec F S3072x2048 .f32) (main_arg4 : FVec F S2048 .f32) (main_arg5 : FVec F S3072x2048 .f32) (main_arg6 : FVec F S2048 .f32) (main_arg7 : FVec F S3072x2048 .f32) (main_arg8 : FVec F S2048 .f32) (main_arg9 : FVec F S3072x2048 .f32) (main_arg10 : FVec F S2048 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S3072x2048 .f32 := Host.absf main_arg3
  let main_cst_4 : FVec F S_ .f32 := constant S_ .f32 0x7F800000#32
  let main_v15 : FVec F S3072x2048 .f32 := broadcastInDim S3072x2048 ![] bcast_S_S3072x2048 main_cst_4
  let main_v16 : IVec S3072x2048 1 := cmpf .olt main_v14 main_v15
  fn_part1 (F := F) main_arg4 main_arg5 main_arg6 main_arg7 main_arg8 main_arg9 main_arg10 main_v13 main_v16
-- ==== Kernel.lean ====
abbrev S4096x1024 : Shape := ⟨2, ![4096, 1024]⟩
abbrev S4096x2048 : Shape := ⟨2, ![4096, 2048]⟩
abbrev S3072x2048 : Shape := ⟨2, ![3072, 2048]⟩
abbrev S2048 : Shape := ⟨1, ![2048]⟩
abbrev S1x2048 : Shape := ⟨2, ![1, 2048]⟩
abbrev S3072x256 : Shape := ⟨2, ![3072, 256]⟩
abbrev S1x256 : Shape := ⟨2, ![1, 256]⟩
abbrev S512x2048 : Shape := ⟨2, ![512, 2048]⟩
abbrev S512x1024 : Shape := ⟨2, ![512, 1024]⟩
abbrev S512x256 : Shape := ⟨2, ![512, 256]⟩
abbrev S2048x256 : Shape := ⟨2, ![2048, 256]⟩
abbrev S1024x256 : Shape := ⟨2, ![1024, 256]⟩

abbrev nBuf : Space → Nat
  | .hbm => 19
  | .vmem => 26
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x2048, .f32⟩
  | .hbm, ⟨3, _⟩ => ⟨S3072x2048, .f32⟩
  | .hbm, ⟨4, _⟩ => ⟨S2048, .f32⟩
  | .hbm, ⟨5, _⟩ => ⟨S3072x2048, .f32⟩
  | .hbm, ⟨6, _⟩ => ⟨S2048, .f32⟩
  | .hbm, ⟨7, _⟩ => ⟨S3072x2048, .f32⟩
  | .hbm, ⟨8, _⟩ => ⟨S2048, .f32⟩
  | .hbm, ⟨9, _⟩ => ⟨S3072x2048, .f32⟩
  | .hbm, ⟨10, _⟩ => ⟨S2048, .f32⟩
  | .hbm, ⟨11, _⟩ => ⟨S4096x2048, .bf16⟩
  | .hbm, ⟨12, _⟩ => ⟨S4096x1024, .bf16⟩
  | .hbm, ⟨13, _⟩ => ⟨S1x2048, .f32⟩
  | .hbm, ⟨14, _⟩ => ⟨S1x2048, .f32⟩
  | .hbm, ⟨15, _⟩ => ⟨S1x2048, .f32⟩
  | .hbm, ⟨16, _⟩ => ⟨S1x2048, .f32⟩
  | .hbm, ⟨17, _⟩ => ⟨S4096x2048, .f32⟩
  | .hbm, ⟨18, _⟩ => ⟨S4096x2048, .f32⟩
  | .local _ .vmem, ⟨0, _⟩ => ⟨S3072x256, .f32⟩
  | .local _ .vmem, ⟨1, _⟩ => ⟨S3072x256, .f32⟩
  | .local _ .vmem, ⟨2, _⟩ => ⟨S3072x256, .f32⟩
  | .local _ .vmem, ⟨3, _⟩ => ⟨S3072x256, .f32⟩
  | .local _ .vmem, ⟨4, _⟩ => ⟨S3072x256, .f32⟩
  | .local _ .vmem, ⟨5, _⟩ => ⟨S3072x256, .f32⟩
  | .local _ .vmem, ⟨6, _⟩ => ⟨S3072x256, .f32⟩
  | .local _ .vmem, ⟨7, _⟩ => ⟨S3072x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S512x2048, .bf16⟩
  | .local _ .vmem, ⟨17, _⟩ => ⟨S512x2048, .bf16⟩
  | .local _ .vmem, ⟨18, _⟩ => ⟨S512x1024, .bf16⟩
  | .local _ .vmem, ⟨19, _⟩ => ⟨S512x1024, .bf16⟩
  | .local _ .vmem, ⟨20, _⟩ => ⟨S512x256, .f32⟩
  | .local _ .vmem, ⟨21, _⟩ => ⟨S512x256, .f32⟩
  | .local _ .vmem, ⟨22, _⟩ => ⟨S512x256, .f32⟩
  | .local _ .vmem, ⟨23, _⟩ => ⟨S512x256, .f32⟩
  | .local _ .vmem, ⟨24, _⟩ => ⟨S512x256, .f32⟩
  | .local _ .vmem, ⟨25, _⟩ => ⟨S512x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S3072x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S3072x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S3072x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S3072x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

class Facts₀ : Prop where
  bitsLt_bf16_f32 : FTy.bits .bf16 < FTy.bits .f32
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S512x256_S512x256_0_0 : ∀ a, (![0, 0] : Fin 2 → Nat) a + S512x256.size a ≤ S512x256.size a
  h_S512x256 : 0 < S512x256.numel
  inb_S3072x256_S2048x256_0_0 : ∀ a, (![0, 0] : Fin 2 → Nat) a + S2048x256.size a ≤ S3072x256.size a
  h_S2048x256 : 0 < S2048x256.numel
  inb_S3072x256_S1024x256_2048_0 : ∀ a, (![2048, 0] : Fin 2 → Nat) a + S1024x256.size a ≤ S3072x256.size a
  h_S1024x256 : 0 < S1024x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  dot_S512x2048_S2048x256_S512x256_1_0_0_1_n_n_wf : DotDims.WF S512x2048 S2048x256 S512x256 [1] [0] [0] [1] [] []
  dot_S512x1024_S1024x256_S512x256_1_0_0_1_n_n_wf : DotDims.WF S512x1024 S1024x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3072x256.size a ≤ S3072x2048.size a
  hwx0_0 : ∀ i : grid0.Coords, EltTy.bits .f32 = 32 ∨ (Rect.block (s := S3072x2048) S3072x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3072x256.size a ≤ S3072x2048.size a
  hwx0_1 : ∀ i : grid0.Coords, EltTy.bits .f32 = 32 ∨ (Rect.block (s := S3072x2048) S3072x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3072x256.size a ≤ S3072x2048.size a
  hwx0_2 : ∀ i : grid0.Coords, EltTy.bits .f32 = 32 ∨ (Rect.block (s := S3072x2048) S3072x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S3072x256.size a ≤ S3072x2048.size a
  hwx0_3 : ∀ i : grid0.Coords, EltTy.bits .f32 = 32 ∨ (Rect.block (s := S3072x2048) S3072x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x2048.size a
  hwx0_4 : ∀ i : grid0.Coords, EltTy.bits .f32 = 32 ∨ (Rect.block (s := S1x2048) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x2048.size a
  hwx0_5 : ∀ i : grid0.Coords, EltTy.bits .f32 = 32 ∨ (Rect.block (s := S1x2048) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x2048.size a
  hwx0_6 : ∀ i : grid0.Coords, EltTy.bits .f32 = 32 ∨ (Rect.block (s := S1x2048) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x2048.size a
  hwx0_7 : ∀ i : grid0.Coords, EltTy.bits .f32 = 32 ∨ (Rect.block (s := S1x2048) S1x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x2048.size a ≤ S4096x2048.size a
  hwx0_8 : ∀ i : grid0.Coords, EltTy.bits .bf16 = 32 ∨ (Rect.block (s := S4096x2048) S512x2048.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x1024.size a ≤ S4096x1024.size a
  hwx0_9 : ∀ i : grid0.Coords, EltTy.bits .bf16 = 32 ∨ (Rect.block (s := S4096x1024) S512x1024.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x256.size a ≤ S4096x2048.size a
  hwx0_10 : ∀ i : grid0.Coords, EltTy.bits .f32 = 32 ∨ (Rect.block (s := S4096x2048) S512x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x256.size a ≤ S4096x2048.size a
  hwx0_11 : ∀ i : grid0.Coords, EltTy.bits .f32 = 32 ∨ (Rect.block (s := S4096x2048) S512x256.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S512x256.size a ≤ S4096x2048.size a
  hwx0_12 : ∀ i : grid0.Coords, EltTy.bits .f32 = 32 ∨ (Rect.block (s := S4096x2048) S512x256.size (cc0_transform_12 i) (hinb0_12 i)).WholeWords (EltTy.packing .f32)

variable [Facts₀]

def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf
def dot_S512x1024_S1024x256_S512x256_1_0_0_1_n_n : DotDims S512x1024 S1024x256 S512x256 where
  lhsContracting := [1]
  rhsContracting := [0]
  lhsNonContracting := [0]
  rhsNonContracting := [1]
  lhsBatch := []
  rhsBatch := []
  wf := dot_S512x1024_S1024x256_S512x256_1_0_0_1_n_n_wf

abbrev win0_0 : Pipeline.Window sig grid0 :=
  Pipeline.Window.ofSpec (Memref.whole main_arg3) S3072x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S3072x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg7) S3072x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg9) S3072x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v5) S1x256.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0) S512x2048.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v1) S512x1024.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_arg2) S512x256.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v6_0) S512x256.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v6_1) S512x256.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S4096x2048 : Shape := ⟨2, ![4096, 2048]⟩
abbrev S3072x2048 : Shape := ⟨2, ![3072, 2048]⟩
abbrev S2048 : Shape := ⟨1, ![2048]⟩
abbrev S4096x3072 : Shape := ⟨2, ![4096, 3072]⟩
abbrev S3072x8192 : Shape := ⟨2, ![3072, 8192]⟩
abbrev S8192 : Shape := ⟨1, ![8192]⟩
abbrev S4096x8192 : Shape := ⟨2, ![4096, 8192]⟩
abbrev S1x8192 : Shape := ⟨2, ![1, 8192]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x2048, .f32⟩
  | .hbm, ⟨3, _⟩ => ⟨S3072x2048, .f32⟩
  | .hbm, ⟨4, _⟩ => ⟨S2048, .f32⟩
  | .hbm, ⟨5, _⟩ => ⟨S3072x2048, .f32⟩
  | .hbm, ⟨6, _⟩ => ⟨S2048, .f32⟩
  | .hbm, ⟨7, _⟩ => ⟨S3072x2048, .f32⟩
  | .hbm, ⟨8, _⟩ => ⟨S2048, .f32⟩
  | .hbm, ⟨9, _⟩ => ⟨S3072x2048, .f32⟩
  | .hbm, ⟨10, _⟩ => ⟨S2048, .f32⟩
  | .hbm, ⟨11, _⟩ => ⟨S4096x3072, .f32⟩
  | .hbm, ⟨12, _⟩ => ⟨S3072x8192, .f32⟩
  | .hbm, ⟨13, _⟩ => ⟨S8192, .f32⟩
  | .hbm, ⟨14, _⟩ => ⟨S4096x8192, .f32⟩
  | .hbm, ⟨15, _⟩ => ⟨S1x8192, .f32⟩
  | .hbm, ⟨16, _⟩ => ⟨S4096x8192, .f32⟩
  | .hbm, ⟨17, _⟩ => ⟨S4096x8192, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S_, .f32⟩
  | .hbm, ⟨33, _⟩ => ⟨S4096x2048, .f32⟩
  | .hbm, ⟨34, _⟩ => ⟨S4096x2048, .f32⟩
  | .hbm, ⟨35, _⟩ => ⟨S_, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S_, .f32⟩
  | .hbm, ⟨41, _⟩ => ⟨S4096x2048, .f32⟩
  | .hbm, ⟨42, _⟩ => ⟨S4096x2048, .f32⟩
  | .hbm, ⟨43, _⟩ => ⟨S_, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_cst_0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩

abbrev nD : Nat := 1
abbrev τ : Topo := Topo.v7x

variable {F : FTy → Type} [FloatOps F]

class Facts₀ : Prop where
  concatenates_S4096x2048_S4096x1024_S4096x3072_d1 : Shape.Concatenates [S4096x2048, S4096x1024] S4096x3072 1
  concatenates_S3072x2048_S3072x2048_S3072x2048_S3072x2048_S3072x8192_d1 : Shape.Concatenates [S3072x2048, S3072x2048, S3072x2048, S3072x2048] S3072x8192 1
  concatenates_S2048_S2048_S2048_S2048_S8192_d0 : Shape.Concatenates [S2048, S2048, S2048, S2048] S8192 0
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  slices_S4096x8192_S4096x2048_0_0 : S4096x8192.Slices ![0, 0] S4096x2048
  slices_S4096x8192_S4096x2048_0_2048 : S4096x8192.Slices ![0, 2048] S4096x2048
  slices_S4096x8192_S4096x2048_0_4096 : S4096x8192.Slices ![0, 4096] S4096x2048
  slices_S4096x8192_S4096x2048_0_6144 : S4096x8192.Slices ![0, 6144] S4096x2048
  bcast_S_S4096x2048 : S_.BroadcastsInDim S4096x2048 (![] : Fin 0 → Fin S4096x2048.rank)
  dot_S4096x3072_S3072x8192_S4096x8192_1_0_0_1_n_n_wf : DotDims.WF S4096x3072 S3072x8192 S4096x8192 [1] [0] [0] [1] [] []

variable [Facts₀]

def dot_S4096x3072_S3072x8192_S4096x8192_1_0_0_1_n_n : DotDims S4096x3072 S3072x8192 S4096x8192 where
  lhsContracting := [1]
  rhsContracting := [0]
  lhsNonContracting := [0]
  rhsNonContracting := [1]
  lhsBatch := []
  rhsBatch := []
  wf := dot_S4096x3072_S3072x8192_S4096x8192_1_0_0_1_n_n_wf

class Facts : Prop extends Facts₀ where

variable [Facts]
-- ==== Proof.LibDot.lean ====
/-
  The product of an N × K matrix by a K × M matrix, read at an index.

  A product whose dimension numbers contract axis 1 of the left operand with axis 0 of the right and carry no batch
  axis has, at (n, j), the value Σ_κ l (n, κ) · r (κ, j). Stated for any dimension-numbers record whose lists have
  those values, generically in the sizes and the operands' formats, at the ideal values (a float is an extended
  real): for the host product, for the accumulating block product, and for the bare sum over the record's
  contraction index that both reduce to.
-/
import Idealize.ShloMosaic.PureOps.Ideal
import Idealize.ShloMosaic.PureOps.Ideal.Laws
import Idealize.ShloMosaic.Lib.ValueIdx
import Idealize.ShloMosaic.Lib.StackMember

noncomputable section

open scoped BigOperators

namespace Cert.LibDot

open Idealize.ShloMosaic Idealize.ShloMosaic.ValueIdx

/-- A product record of an N × K by a K × M matrix whose lists are those of the plain product (contract axis 1 of the
    left with axis 0 of the right, no batch axis) is the plain product's record: the lists agree and the
    well-formedness is a proposition. -/
theorem dot_eq_plain {N K M : Nat} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = []) :
    d = DotDims.plain N K M := by
  cases d
  simp only at hlc hrc hln hrn hlb hrb
  subst hlc hrc hln hrn hlb hrb
  rfl

/-- THE CONTRACTION'S SUM AT (n, j): over the record's contraction index, the left operand read at its left index
    times the right operand read at its right index, is the sum over κ of l (n, κ) · r (κ, j). -/
theorem contr_sum_rows {N K M : Nat} {φ₁ φ₂ : FTy} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![N, K]⟩ φ₁) (r : FVec Ideal ⟨2, ![K, M]⟩ φ₂) (n : Fin N) (j : Fin M) :
    ∑ k : d.contr.Idx, l (d.lhsIdx (ix2 n j) k) * r (d.rhsIdx (ix2 n j) k) = ∑ κ : Fin K, l (ix2 n κ) * r (ix2 κ j) := by
  rw [dot_eq_plain d hlc hrc hln hrn hlb hrb]
  exact (Ideal.dotGeneral_apply (DotDims.plain N K M) none .single l r (ix2 n j)).symm.trans
    (StackMember.dotGeneral_plain_apply none l r n j)

/-- THE HOST MATRIX PRODUCT READ AT (n, j): Σ_κ l (n, κ) · r (κ, j). -/
theorem dot_rows_apply {N K M : Nat} {φ₁ φ₂ : FTy} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (l : FVec Ideal ⟨2, ![N, K]⟩ φ₁) (r : FVec Ideal ⟨2, ![K, M]⟩ φ₂) (n : Fin N) (j : Fin M) :
    Host.dotGeneral (F := Ideal) d prec l r (ix2 n j) = ∑ κ : Fin K, l (ix2 n κ) * r (ix2 κ j) := by
  show FloatOps.dotGeneral d prec .single l r (ix2 n j) = _
  rw [Ideal.dotGeneral_apply]
  exact contr_sum_rows d hlc hrc hln hrn hlb hrb l r n j

/-- THE ACCUMULATING BLOCK PRODUCT READ AT (n, j): the accumulator's entry plus Σ_κ l (n, κ) · r (κ, j). -/
theorem matmul_rows_apply {N K M : Nat} {φ₁ φ₂ : FTy} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (l : FVec Ideal ⟨2, ![N, K]⟩ φ₁) (r : FVec Ideal ⟨2, ![K, M]⟩ φ₂) (acc : FVec Ideal ⟨2, ![N, M]⟩ .f32)
    (n : Fin N) (j : Fin M) :
    FloatOps.matmul d prec l r acc (ix2 n j) = acc (ix2 n j) + ∑ κ : Fin K, l (ix2 n κ) * r (ix2 κ j) := by
  rw [Ideal.matmul_apply]
  exact congrArg (acc (ix2 n j) + ·) (contr_sum_rows d hlc hrc hln hrn hlb hrb l r n j)

end Cert.LibDot

end
-- ==== Proof.Spec.lean ====
/-
  One step of a long short-term memory cell, written as functions of the argument arrays.

  The cell reads a batch of 4096 rows: the previous hidden state `h` (2048 columns), the input `x` (1024 columns) and
  the previous cell state `c` (2048 columns). Each of the four gates has a 3072 × 2048 weight matrix `W` and a bias
  `b` of 2048 entries; rows 0 … 2047 of `W` multiply `h` and rows 2048 … 3071 multiply `x`. At row `r` and
  column `j` the gate's pre-activation is

      pre r j = Σ_{k < 2048} h (r, k) · W (k, j)  +  Σ_{k < 1024} x (r, k) · W (2048 + k, j)  +  b j,

  and with σ the logistic function the new states are

      cell   = σ (pre_f) · c + σ (pre_i) · tanh (pre_c),        hidden = σ (pre_o) · tanh (cell).

  Everything is over the extended reals. The two sums of `pre` together are the one sum over all 3072 rows of `W`
  against the row of `h` followed by the row of `x` (`sum_rows_split`): only the associativity and commutativity of
  the sum are used, so nothing here asks the entries to be finite.
-/
import Idealize.ShloMosaic.PureOps.Ideal
import Idealize.ShloMosaic.Lib.ValueIdx

noncomputable section

open scoped BigOperators

namespace Cert.Lstm

open Idealize.ShloMosaic Idealize.ShloMosaic.ValueIdx

/-- Row `k` of the part of a weight matrix that multiplies the hidden state: row `k` of the matrix. -/
def rowH (k : Fin 2048) : Fin 3072 := ⟨k.val, by have := k.isLt; omega⟩

/-- Row `k` of the part of a weight matrix that multiplies the input: row `2048 + k` of the matrix. -/
def rowX (k : Fin 1024) : Fin 3072 := ⟨2048 + k.val, by have := k.isLt; omega⟩

@[simp] theorem rowH_val (k : Fin 2048) : (rowH k).val = k.val := rfl
@[simp] theorem rowX_val (k : Fin 1024) : (rowX k).val = 2048 + k.val := rfl

/-- A sum over the 3072 rows is the sum over the first 2048 plus the sum over the last 1024. -/
theorem sum_rows_split (f : Fin 3072 → EReal) :
    ∑ κ : Fin 3072, f κ = ∑ k : Fin 2048, f (rowH k) + ∑ k : Fin 1024, f (rowX k) :=
  Fin.sum_univ_add (a := 2048) (b := 1024) f

/-- The pre-activation of one gate at row `r`, column `j`. -/
def pre (h : (⟨2, ![4096, 2048]⟩ : Shape).Idx → EReal) (x : (⟨2, ![4096, 1024]⟩ : Shape).Idx → EReal)
    (W : (⟨2, ![3072, 2048]⟩ : Shape).Idx → EReal) (b : (⟨1, ![2048]⟩ : Shape).Idx → EReal)
    (r : Fin 4096) (j : Fin 2048) : EReal :=
  (∑ k : Fin 2048, h (ix2 r k) * W (ix2 (rowH k) j)) + (∑ k : Fin 1024, x (ix2 r k) * W (ix2 (rowX k) j)) + b (ix1 j)

/-- The new cell state: the forget gate times the old cell state plus the input gate times the candidate. -/
def cell (x : (⟨2, ![4096, 1024]⟩ : Shape).Idx → EReal) (h c : (⟨2, ![4096, 2048]⟩ : Shape).Idx → EReal)
    (Wf : (⟨2, ![3072, 2048]⟩ : Shape).Idx → EReal) (bf : (⟨1, ![2048]⟩ : Shape).Idx → EReal)
    (Wi : (⟨2, ![3072, 2048]⟩ : Shape).Idx → EReal) (bi : (⟨1, ![2048]⟩ : Shape).Idx → EReal)
    (Wc : (⟨2, ![3072, 2048]⟩ : Shape).Idx → EReal) (bc : (⟨1, ![2048]⟩ : Shape).Idx → EReal)
    (i : (⟨2, ![4096, 2048]⟩ : Shape).Idx) : EReal :=
  Ideal.logistic (pre h x Wf bf (i 0) (i 1)) * c i + Ideal.logistic (pre h x Wi bi (i 0) (i 1)) * Ideal.tanh (pre h x Wc bc (i 0) (i 1))

/-- The new hidden state: the output gate times the hyperbolic tangent of the new cell state. -/
def hidden (x : (⟨2, ![4096, 1024]⟩ : Shape).Idx → EReal) (h c : (⟨2, ![4096, 2048]⟩ : Shape).Idx → EReal)
    (Wf : (⟨2, ![3072, 2048]⟩ : Shape).Idx → EReal) (bf : (⟨1, ![2048]⟩ : Shape).Idx → EReal)
    (Wi : (⟨2, ![3072, 2048]⟩ : Shape).Idx → EReal) (bi : (⟨1, ![2048]⟩ : Shape).Idx → EReal)
    (Wo : (⟨2, ![3072, 2048]⟩ : Shape).Idx → EReal) (bo : (⟨1, ![2048]⟩ : Shape).Idx → EReal)
    (Wc : (⟨2, ![3072, 2048]⟩ : Shape).Idx → EReal) (bc : (⟨1, ![2048]⟩ : Shape).Idx → EReal)
    (i : (⟨2, ![4096, 2048]⟩ : Shape).Idx) : EReal :=
  Ideal.logistic (pre h x Wo bo (i 0) (i 1)) * Ideal.tanh (cell x h c Wf bf Wi bi Wc bc i)

/-- The single-precision word of `1.0` denotes the number one. -/
theorem word_one : Ideal.ofBits .f32 0x3F800000#32 = 1 := by
  simp [Ideal.ofBits, Ideal.ieee, -EReal.coe_mul]; norm_num

/-- The logistic function spelt with its operations: one over one plus the exponential of the negation. -/
theorem logistic_spelt (v : EReal) : Ideal.div 1 (1 + Ideal.exp (-v)) = Ideal.logistic v := rfl

end Cert.Lstm

end
-- ==== Proof.KernelGate.lean ====
/-
  The kernel body's arithmetic, read at one entry of a 512 × 256 output block.

  At a grid point the body holds a 512 × 2048 block `hb` of the hidden state and a 512 × 1024 block `xb` of the input,
  and for each gate the top 2048 × 256 rows `wt` and the bottom 1024 × 256 rows `wb` of a 3072 × 256 weight block and a
  1 × 256 bias block `bb`. Each gate is a matrix product of `hb` with `wt` into a zero accumulator, plus one of
  `xb` with `wb`, plus the bias row repeated down the 512 rows. Read at row `p`, column `q` that is

      blockPre p q = Σ_{k < 2048} hb (p, k) · wt (k, q)  +  Σ_{k < 1024} xb (p, k) · wb (k, q)  +  bb (0, q):

  a product into the zero accumulator is the bare sum over the contracted axis, narrowing a float's format changes no
  value, and a cast of a block to its own shape is the block. The stored values are then the logistic function and the
  hyperbolic tangent of such entries, multiplied and added entry by entry.
-/
import proofs.«425110_j29600914604232_3_alg».proof.Proof.Gen.KernelIdeal.Skeleton
import proofs.«425110_j29600914604232_3_alg».proof.Proof.LibDot
import proofs.«425110_j29600914604232_3_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-- One gate's pre-activation at row `p`, column `q` of the block, from the blocks the body holds. -/
def blockPre (hb : S512x2048.Idx → EReal) (xb : S512x1024.Idx → EReal) (wt : S2048x256.Idx → EReal)
    (wb : S1024x256.Idx → EReal) (bb : S1x256.Idx → EReal) (p : Fin 512) (q : Fin 256) : EReal :=
  (∑ k : Fin 2048, hb (ix2 p k) * wt (ix2 k q)) + (∑ k : Fin 1024, xb (ix2 p k) * wb (ix2 k q)) + bb (ix2 (0 : Fin 1) q)

/-- The bias row repeated down the rows, read at (p, q), is the bias at column q. -/
theorem bias_apply (bb : Vec Ideal S1x256 .f32) (p : Fin 512) (q : Fin 256) :
    broadcastTo S512x256 (shapeCast S1x256 bb shapeCasts_S1x256_S1x256) broadcasts_S1x256_S512x256 (ix2 p q)
      = bb (ix2 (0 : Fin 1) q) := by
  rw [shapeCast_self]
  exact broadcastTo_apply bb broadcasts_S1x256_S512x256 (ix2 p q) (ix2 (0 : Fin 1) q) (fun a => match a with
    | ⟨0, _⟩ => by show (0 : Nat) = if (1 : Nat) = 1 then 0 else _; rw [if_pos rfl]
    | ⟨1, _⟩ => by show q.val = if (256 : Nat) = 1 then 0 else q.val; rw [if_neg (by decide)])

/-- THE GATE AT (p, q): the two products into zero accumulators and the repeated bias row add up to `blockPre`. -/
theorem gate_apply (hb : FVec Ideal S512x2048 .bf16) (xb : FVec Ideal S512x1024 .bf16)
    (wt : FVec Ideal S2048x256 .bf16) (wb : FVec Ideal S1024x256 .bf16) (bb : Vec Ideal S1x256 .f32)
    (p : Fin 512) (q : Fin 256) :
    addf (addf (matmul dot_S512x2048_S2048x256_S512x256_1_0_0_1_n_n none hb wt (constant S512x256 .f32 0x00000000#32))
                (matmul dot_S512x1024_S1024x256_S512x256_1_0_0_1_n_n none xb wb (constant S512x256 .f32 0x00000000#32)))
         (broadcastTo S512x256 (shapeCast S1x256 bb shapeCasts_S1x256_S1x256) broadcasts_S1x256_S512x256) (ix2 p q)
      = blockPre hb xb wt wb bb p q := by
  have e1 : matmul dot_S512x2048_S2048x256_S512x256_1_0_0_1_n_n none hb wt (constant S512x256 .f32 0x00000000#32) (ix2 p q)
      = ∑ k : Fin 2048, hb (ix2 p k) * wt (ix2 k q) := by
    refine (Cert.LibDot.matmul_rows_apply dot_S512x2048_S2048x256_S512x256_1_0_0_1_n_n rfl rfl rfl rfl rfl rfl none hb wt _ p q).trans ?_
    rw [constant_apply, Ideal.ofBits_zero_f32, zero_add]
  have e2 : matmul dot_S512x1024_S1024x256_S512x256_1_0_0_1_n_n none xb wb (constant S512x256 .f32 0x00000000#32) (ix2 p q)
      = ∑ k : Fin 1024, xb (ix2 p k) * wb (ix2 k q) := by
    refine (Cert.LibDot.matmul_rows_apply dot_S512x1024_S1024x256_S512x256_1_0_0_1_n_n rfl rfl rfl rfl rfl rfl none xb wb _ p q).trans ?_
    rw [constant_apply, Ideal.ofBits_zero_f32, zero_add]
  rw [addf_apply, addf_apply, e1, e2, bias_apply]
  rfl

/-- A block cast to its own shape is the block. -/
theorem pay3_eq (v0 : Vec Ideal S512x2048 .bf16) : k0_pay3 (F := Ideal) v0 = v0 := shapeCast_self _ _
theorem pay4_eq (v2 : Vec Ideal S512x1024 .bf16) : k0_pay4 (F := Ideal) v2 = v2 := shapeCast_self _ _

/-- Narrowing the weights' format changes no entry. -/
theorem pay7_eq (v29 : Vec Ideal S2048x256 .f32) : k0_pay7 (F := Ideal) v29 = v29 := rfl

/-- The forget gate's activation at (p, q). -/
theorem pay5_apply (v0 : Vec Ideal S512x2048 .bf16) (v2 : Vec Ideal S512x1024 .bf16) (v5 : Vec Ideal S2048x256 .f32)
    (v7 : Vec Ideal S1024x256 .f32) (v12 : Vec Ideal S1x256 .f32) (p : Fin 512) (q : Fin 256) :
    k0_pay5 (F := Ideal) v0 v2 v5 v7 v12 (ix2 p q) = Ideal.logistic (blockPre v0 v2 v5 v7 v12 p q) := by
  refine (congrArg Ideal.logistic (gate_apply (k0_pay3 v0) (k0_pay4 v2) (truncf .bf16 v5 bitsLt_bf16_f32) (truncf .bf16 v7 bitsLt_bf16_f32) v12 p q)).trans ?_
  rw [pay3_eq, pay4_eq]
  rfl

/-- The input gate's activation at (p, q). -/
theorem pay6_apply (v0 : Vec Ideal S512x2048 .bf16) (v2 : Vec Ideal S512x1024 .bf16) (v17 : Vec Ideal S2048x256 .f32)
    (v19 : Vec Ideal S1024x256 .f32) (v24 : Vec Ideal S1x256 .f32) (p : Fin 512) (q : Fin 256) :
    k0_pay6 (F := Ideal) v0 v2 v17 v19 v24 (ix2 p q) = Ideal.logistic (blockPre v0 v2 v17 v19 v24 p q) := by
  refine (congrArg Ideal.logistic (gate_apply (k0_pay3 v0) (k0_pay4 v2) (truncf .bf16 v17 bitsLt_bf16_f32) (truncf .bf16 v19 bitsLt_bf16_f32) v24 p q)).trans ?_
  rw [pay3_eq, pay4_eq]
  rfl

/-- The stored cell state at (p, q): forget activation times the old cell entry, plus input activation times the
    hyperbolic tangent of the candidate's pre-activation. -/
theorem pay1_apply (v1 : FVec Ideal S512x2048 .bf16) (v3 : FVec Ideal S512x1024 .bf16) (v4 : Vec Ideal S512x256 .f32)
    (v16 v28 : FVec Ideal S512x256 .f32) (v41 : Vec Ideal S2048x256 .f32) (v43 : Vec Ideal S1024x256 .f32)
    (v48 : Vec Ideal S1x256 .f32) (p : Fin 512) (q : Fin 256) :
    k0_pay1 (F := Ideal) v1 v3 v4 v16 v28 v41 v43 v48 (ix2 p q)
      = v16 (ix2 p q) * v4 (ix2 p q) + v28 (ix2 p q) * Ideal.tanh (blockPre v1 v3 v41 v43 v48 p q) := by
  have e := gate_apply v1 v3 (truncf .bf16 v41 bitsLt_bf16_f32) (truncf .bf16 v43 bitsLt_bf16_f32) v48 p q
  exact congrArg (fun z => v16 (ix2 p q) * v4 (ix2 p q) + v28 (ix2 p q) * Ideal.tanh z) e

/-- The stored hidden state at (p, q): output activation times the hyperbolic tangent of the stored cell state. -/
theorem pay2_apply (v1 : FVec Ideal S512x2048 .bf16) (v3 : FVec Ideal S512x1024 .bf16) (v4 : Vec Ideal S512x256 .f32)
    (v16 v28 : FVec Ideal S512x256 .f32) (v30 : FVec Ideal S2048x256 .bf16) (v31 : Vec Ideal S1024x256 .f32)
    (v36 : Vec Ideal S1x256 .f32) (v41 : Vec Ideal S2048x256 .f32) (v43 : Vec Ideal S1024x256 .f32)
    (v48 : Vec Ideal S1x256 .f32) (p : Fin 512) (q : Fin 256) :
    k0_pay2 (F := Ideal) v1 v3 v4 v16 v28 v30 v31 v36 v41 v43 v48 (ix2 p q)
      = Ideal.logistic (blockPre v1 v3 v30 v31 v36 p q) * Ideal.tanh (k0_pay1 (F := Ideal) v1 v3 v4 v16 v28 v41 v43 v48 (ix2 p q)) := by
  have e := gate_apply v1 v3 v30 (truncf .bf16 v31 bitsLt_bf16_f32) v36 p q
  exact congrArg (fun z => Ideal.logistic z * Ideal.tanh (k0_pay1 (F := Ideal) v1 v3 v4 v16 v28 v41 v43 v48 (ix2 p q))) e

end Cert.KernelIdeal.Body

end
-- ==== Proof.KernelPoint.lean ====
/-
  What one grid point stores, read at one entry.

  At a grid point the body holds, for each gate, ONE 3072 × 256 block `w` of the gate's weight matrix and loads its rows
  0 … 2047 and its rows 2048 … 3071 separately. Entry (k, q) of the first load is `w (k, q)` and entry (k, q) of the second
  is `w (2048 + k, q)`, so a gate's pre-activation at (p, q) is

      wpre p q = Σ_{k < 2048} hb (p, k) · w (k, q)  +  Σ_{k < 1024} xb (p, k) · w (2048 + k, q)  +  bb (0, q).

  The body stores each output block whole, through one rectangle that is the block, so what it leaves in the block is
  the stored value: the cell state `blockCell` and the hidden state `blockHidden` over the blocks of that point.
-/
import proofs.«425110_j29600914604232_3_alg».proof.Proof.Gen.KernelIdeal.Frame
import proofs.«425110_j29600914604232_3_alg».proof.Proof.KernelGate
import Idealize.ShloMosaic.Lib.Pipeline.Value
import Idealize.ShloMosaic.Lib.ValueIdx

noncomputable section

open scoped BigOperators

namespace Cert.KernelIdeal.Body

open Cert.KernelIdeal Cert.KernelIdeal.Gen Idealize.ShloMosaic Idealize.ShloMosaic.ValueIdx Cert.Lstm

/-- The offsets of a rectangle that starts at the block's corner. -/
theorem zeros : (![0, 0] : Fin 2 → Nat) = fun _ => 0 := funext fun a => by fin_cases a <;> rfl

/-- The load of a weight block's first 2048 rows, at (k, q), is the block at row k. -/
theorem top_apply (w : Vec Ideal S3072x256 .f32) (k : Fin 2048) (q : Fin 256) :
    View.ld w r0_3 (ix2 k q) = w (ix2 (rowH k) q) := by
  show w (r0_3.idx (ix2 k q)) = _
  refine congrArg w (funext fun a => Fin.ext ?_)
  match a with
  | ⟨0, _⟩ => show 0 + 1 * k.val = k.val; omega
  | ⟨1, _⟩ => show 0 + 1 * q.val = q.val; omega

/-- The load of a weight block's last 1024 rows, at (k, q), is the block at row 2048 + k. -/
theorem bot_apply (w : Vec Ideal S3072x256 .f32) (k : Fin 1024) (q : Fin 256) :
    View.ld w r0_4 (ix2 k q) = w (ix2 (rowX k) q) := by
  show w (r0_4.idx (ix2 k q)) = _
  refine congrArg w (funext fun a => Fin.ext ?_)
  match a with
  | ⟨0, _⟩ => show 2048 + 1 * k.val = 2048 + k.val; omega
  | ⟨1, _⟩ => show 0 + 1 * q.val = q.val; omega

/-- One gate's pre-activation at (p, q) from the gate's whole weight block. -/
def wpre (hb : S512x2048.Idx → EReal) (xb : S512x1024.Idx → EReal) (w : S3072x256.Idx → EReal)
    (bb : S1x256.Idx → EReal) (p : Fin 512) (q : Fin 256) : EReal :=
  (∑ k : Fin 2048, hb (ix2 p k) * w (ix2 (rowH k) q)) + (∑ k : Fin 1024, xb (ix2 p k) * w (ix2 (rowX k) q)) + bb (ix2 (0 : Fin 1) q)

/-- The pre-activation over the two loads of a weight block is the pre-activation over the block. -/
theorem blockPre_ld (hb : S512x2048.Idx → EReal) (xb : S512x1024.Idx → EReal) (w : Vec Ideal S3072x256 .f32)
    (bb : S1x256.Idx → EReal) (p : Fin 512) (q : Fin 256) :
    blockPre hb xb (View.ld w r0_3) (View.ld w r0_4) bb p q = wpre hb xb w bb p q := by
  unfold blockPre wpre
  refine congrArg₂ (· + ·) (congrArg₂ (· + ·) (Finset.sum_congr rfl fun k _ => ?_) (Finset.sum_congr rfl fun k _ => ?_)) rfl
  · exact congrArg (hb (ix2 p k) * ·) (top_apply w k q)
  · exact congrArg (xb (ix2 p k) * ·) (bot_apply w k q)

/-- The new cell state at (p, q) of a point's block. -/
def blockCell (hb : S512x2048.Idx → EReal) (xb : S512x1024.Idx → EReal) (cb : S512x256.Idx → EReal)
    (wf : S3072x256.Idx → EReal) (bf : S1x256.Idx → EReal) (wi : S3072x256.Idx → EReal) (bi : S1x256.Idx → EReal)
    (wc : S3072x256.Idx → EReal) (bc : S1x256.Idx → EReal) (p : Fin 512) (q : Fin 256) : EReal :=
  Ideal.logistic (wpre hb xb wf bf p q) * cb (ix2 p q) + Ideal.logistic (wpre hb xb wi bi p q) * Ideal.tanh (wpre hb xb wc bc p q)

/-- The new hidden state at (p, q) of a point's block. -/
def blockHidden (hb : S512x2048.Idx → EReal) (xb : S512x1024.Idx → EReal) (cb : S512x256.Idx → EReal)
    (wf : S3072x256.Idx → EReal) (bf : S1x256.Idx → EReal) (wi : S3072x256.Idx → EReal) (bi : S1x256.Idx → EReal)
    (wo : S3072x256.Idx → EReal) (bo : S1x256.Idx → EReal)
    (wc : S3072x256.Idx → EReal) (bc : S1x256.Idx → EReal) (p : Fin 512) (q : Fin 256) : EReal :=
  Ideal.logistic (wpre hb xb wo bo p q) * Ideal.tanh (blockCell hb xb cb wf bf wi bi wc bc p q)

/-- The stored cell-state payload at (p, q), over the point's blocks. -/
theorem cell_payload (x0 x1 x2 x3 : Vec Ideal S3072x256 .f32) (x4 x5 x6 x7 : Vec Ideal S1x256 .f32) (x8 : Vec Ideal S512x2048 .bf16)
    (x9 : Vec Ideal S512x1024 .bf16) (x10 : Vec Ideal S512x256 .f32) (p : Fin 512) (q : Fin 256) :
    k0_pay1 (F := Ideal) (k0_pay3 (View.ld x8 r0_0)) (k0_pay4 (View.ld x9 r0_1)) (View.ld x10 r0_2)
        (k0_pay5 (View.ld x8 r0_0) (View.ld x9 r0_1) (View.ld x0 r0_3) (View.ld x0 r0_4) (View.ld x4 r0_5))
        (k0_pay6 (View.ld x8 r0_0) (View.ld x9 r0_1) (View.ld x1 r0_3) (View.ld x1 r0_4) (View.ld x5 r0_5))
        (View.ld x3 r0_3) (View.ld x3 r0_4) (View.ld x7 r0_5) (ix2 p q)
      = blockCell x8 x9 x10 x0 x4 x1 x5 x3 x7 p q := by
  rw [pay1_apply, pay5_apply, pay6_apply, pay3_eq, pay4_eq]
  simp only [View.ld_unit_zero (S := S512x2048) zeros, View.ld_unit_zero (S := S512x1024) zeros,
    View.ld_unit_zero (S := S512x256) zeros, View.ld_unit_zero (S := S1x256) zeros]
  rw [blockPre_ld, blockPre_ld, blockPre_ld,
    show View.ld x10 r0_2 = x10 from View.ld_unit_zero (S := S512x256) zeros _ x10]
  rfl

/-- WHAT THE POINT LEAVES IN THE CELL-STATE BLOCK, at (p, q). -/
theorem point_cell (x0 x1 x2 x3 : Vec Ideal S3072x256 .f32) (x4 x5 x6 x7 : Vec Ideal S1x256 .f32) (x8 : Vec Ideal S512x2048 .bf16)
    (x9 : Vec Ideal S512x1024 .bf16) (x10 : Vec Ideal S512x256 .f32) (p : Fin 512) (q : Fin 256) :
    out0_12 (F := Ideal) x0 x1 x2 x3 x4 x5 x6 x7 x8 x9 x10 (ix2 p q) = blockCell x8 x9 x10 x0 x4 x1 x5 x3 x7 p q := by
  unfold out0_12
  rw [View.canon_unit_zero zeros]
  exact cell_payload x0 x1 x2 x3 x4 x5 x6 x7 x8 x9 x10 p q

/-- WHAT THE POINT LEAVES IN THE HIDDEN-STATE BLOCK, at (p, q). -/
theorem point_hidden (x0 x1 x2 x3 : Vec Ideal S3072x256 .f32) (x4 x5 x6 x7 : Vec Ideal S1x256 .f32) (x8 : Vec Ideal S512x2048 .bf16)
    (x9 : Vec Ideal S512x1024 .bf16) (x10 : Vec Ideal S512x256 .f32) (p : Fin 512) (q : Fin 256) :
    out0_11 (F := Ideal) x0 x1 x2 x3 x4 x5 x6 x7 x8 x9 x10 (ix2 p q)
      = blockHidden x8 x9 x10 x0 x4 x1 x5 x2 x6 x3 x7 p q := by
  unfold out0_11
  rw [View.canon_unit_zero zeros, pay2_apply, cell_payload x0 x1 x2 x3 x4 x5 x6 x7 x8 x9 x10 p q, pay7_eq, pay3_eq, pay4_eq]
  simp only [View.ld_unit_zero (S := S512x2048) zeros, View.ld_unit_zero (S := S512x1024) zeros,
    View.ld_unit_zero (S := S512x256) zeros, View.ld_unit_zero (S := S1x256) zeros]
  rw [blockPre_ld]
  rfl

end Cert.KernelIdeal.Body

end
-- ==== Proof.KernelArray.lean ====
/-
  From what each grid point stores to the two result arrays.

  The grid has 8 × 8 points. Point t works on the 512 rows `rowOf t` and the 256 columns `colOf t` of the results: its
  blocks of the hidden state, the input and the old cell state are those rows (all 2048, all 1024, and the point's 256
  columns), its weight blocks are all 3072 rows at the point's columns, and its bias blocks are the point's columns
  of the bias laid out as one row. So the cell and hidden states a point stores are the specification's functions of
  the argument arrays, read at the point's rows and columns; the 64 blocks tile the 4096 × 2048 results, and each result
  array ends holding its function everywhere. The conversions of the states and the input to a narrower float format
  before the grid change no value, and a bias reshaped to one row keeps its entries in order.
-/
import proofs.«425110_j29600914604232_3_alg».proof.Proof.Gen.KernelIdeal.Value
import proofs.«425110_j29600914604232_3_alg».proof.Proof.KernelPoint
import proofs.«425110_j29600914604232_3_alg».proof.Proof.Spec
import Idealize.ShloMosaic.Lib.Pipeline.Value
import Idealize.ShloMosaic.Lib.ValueIdx
import Idealize.ShloMosaic.Lib.StableHlo.Run

noncomputable section

open scoped BigOperators

namespace Cert.KernelIdeal.Result

open Cert.KernelIdeal Cert.KernelIdeal.Gen Cert.KernelIdeal.Body Idealize.ShloMosaic Idealize.ShloMosaic.TcCoe
open Idealize.SL.Sem Idealize.ShloMosaic.ValueIdx Idealize.ShloMosaic.StableHlo Cert.Lstm
open Idealize.ShloMosaic.Pipeline (Dat)

variable (m : (ℓ : Loc nD τ sig) → Buf (Elt Ideal) ℓ) (ρ : Dev nD → PrngReg)

/-! ## The printed index maps over the grid -/

/-- A weight or bias window sits at block row 0 and at the output's block column. -/
theorem idx_w0 : ∀ t : Fin cfg0.N, win0_0.index t (0 : Fin 2) = 0 ∧ win0_0.index t (1 : Fin 2) = win0_12.index t (1 : Fin 2) :=
  (by decide +kernel : ∀ t : Fin grid0.N, _)
theorem idx_w1 : ∀ t : Fin cfg0.N, win0_1.index t (0 : Fin 2) = 0 ∧ win0_1.index t (1 : Fin 2) = win0_12.index t (1 : Fin 2) :=
  (by decide +kernel : ∀ t : Fin grid0.N, _)
theorem idx_w2 : ∀ t : Fin cfg0.N, win0_2.index t (0 : Fin 2) = 0 ∧ win0_2.index t (1 : Fin 2) = win0_12.index t (1 : Fin 2) :=
  (by decide +kernel : ∀ t : Fin grid0.N, _)
theorem idx_w3 : ∀ t : Fin cfg0.N, win0_3.index t (0 : Fin 2) = 0 ∧ win0_3.index t (1 : Fin 2) = win0_12.index t (1 : Fin 2) :=
  (by decide +kernel : ∀ t : Fin grid0.N, _)
theorem idx_w4 : ∀ t : Fin cfg0.N, win0_4.index t (0 : Fin 2) = 0 ∧ win0_4.index t (1 : Fin 2) = win0_12.index t (1 : Fin 2) :=
  (by decide +kernel : ∀ t : Fin grid0.N, _)
theorem idx_w5 : ∀ t : Fin cfg0.N, win0_5.index t (0 : Fin 2) = 0 ∧ win0_5.index t (1 : Fin 2) = win0_12.index t (1 : Fin 2) :=
  (by decide +kernel : ∀ t : Fin grid0.N, _)
theorem idx_w6 : ∀ t : Fin cfg0.N, win0_6.index t (0 : Fin 2) = 0 ∧ win0_6.index t (1 : Fin 2) = win0_12.index t (1 : Fin 2) :=
  (by decide +kernel : ∀ t : Fin grid0.N, _)
theorem idx_w7 : ∀ t : Fin cfg0.N, win0_7.index t (0 : Fin 2) = 0 ∧ win0_7.index t (1 : Fin 2) = win0_12.index t (1 : Fin 2) :=
  (by decide +kernel : ∀ t : Fin grid0.N, _)

/-- The state and input windows sit at the output's block row and block column 0; the old cell state and the hidden
    output sit at the output's block. -/
theorem idx_s : ∀ t : Fin cfg0.N, win0_8.index t (0 : Fin 2) = win0_12.index t (0 : Fin 2) ∧ win0_8.index t (1 : Fin 2) = 0
    ∧ win0_9.index t (0 : Fin 2) = win0_12.index t (0 : Fin 2) ∧ win0_9.index t (1 : Fin 2) = 0
    ∧ win0_10.index t (0 : Fin 2) = win0_12.index t (0 : Fin 2) ∧ win0_10.index t (1 : Fin 2) = win0_12.index t (1 : Fin 2)
    ∧ win0_11.index t (0 : Fin 2) = win0_12.index t (0 : Fin 2) ∧ win0_11.index t (1 : Fin 2) = win0_12.index t (1 : Fin 2) :=
  (by decide +kernel : ∀ t : Fin grid0.N, _)

/-- The output's block indices stay below 8 on both axes. -/
theorem idx_rng : ∀ t : Fin cfg0.N, win0_12.index t (0 : Fin 2) ≤ 7 ∧ win0_12.index t (1 : Fin 2) ≤ 7 :=
  (by decide +kernel : ∀ t : Fin grid0.N, _)

/-- Every one of the 8 × 8 blocks is some point's. -/
theorem idx_onto : ∀ (q0 q1 : Fin 8), ∃ t : Fin cfg0.N, win0_12.index t = ![q0.val, q1.val] :=
  (by decide +kernel : ∀ (q0 q1 : Fin 8), ∃ t : Fin grid0.N, win0_12.index t = ![q0.val, q1.val])

/-- Row p of point t's blocks is this row of the arrays. -/
def rowOf (t : Fin cfg0.N) (p : Fin 512) : Fin 4096 :=
  ⟨win0_12.index t (0 : Fin 2) * 512 + p.val, by have := (idx_rng t).1; have := p.isLt; omega⟩

/-- Column q of point t's blocks is this column of the arrays. -/
def colOf (t : Fin cfg0.N) (q : Fin 256) : Fin 2048 :=
  ⟨win0_12.index t (1 : Fin 2) * 256 + q.val, by have := (idx_rng t).2; have := q.isLt; omega⟩

/-! ## The arrays as the grid finds them, and the blocks read at an index -/

/-- The hidden state narrowed to the shorter float format holds the hidden state's values. -/
theorem found_h (c : Dev nD) : (V m c main_v0 : S4096x2048.Idx → EReal) = (m ((c : Thread nD τ).loc main_arg1)) := by
  dsimp only [V, hostOps0]; after_results; rfl

/-- The input narrowed to the shorter float format holds the input's values. -/
theorem found_x (c : Dev nD) : (V m c main_v1 : S4096x1024.Idx → EReal) = (m ((c : Thread nD τ).loc main_arg0)) := by
  dsimp only [V, hostOps0]; after_results; rfl

/-- The hidden-state window's block at a point, at (p, k): the hidden state at the point's row. -/
theorem blk_h (c : Dev nD) (t : Fin cfg0.N) (p : Fin 512) (k : Fin 2048) :
    iblk m c 8 t (ix2 p k) = (m ((c : Thread nD τ).loc main_arg1)) (ix2 (rowOf t p) k) := by
  show V m c main_v0 (((cfg0.win 8).blk t).view.emb (ix2 p k)) = _
  refine (congrFun (found_h m c) _).trans (congrArg (m ((c : Thread nD τ).loc main_arg1)) (funext fun a => Fin.ext ?_))
  obtain ⟨e0, e1, -⟩ := idx_s t
  match a with
  | ⟨0, _⟩ => show win0_8.index t (0 : Fin 2) * 512 + 1 * p.val = win0_12.index t (0 : Fin 2) * 512 + p.val; omega
  | ⟨1, _⟩ => show win0_8.index t (1 : Fin 2) * 2048 + 1 * k.val = k.val; omega

/-- The input window's block at a point, at (p, k): the input at the point's row. -/
theorem blk_x (c : Dev nD) (t : Fin cfg0.N) (p : Fin 512) (k : Fin 1024) :
    iblk m c 9 t (ix2 p k) = (m ((c : Thread nD τ).loc main_arg0)) (ix2 (rowOf t p) k) := by
  show V m c main_v1 (((cfg0.win 9).blk t).view.emb (ix2 p k)) = _
  refine (congrFun (found_x m c) _).trans (congrArg (m ((c : Thread nD τ).loc main_arg0)) (funext fun a => Fin.ext ?_))
  obtain ⟨-, -, e0, e1, -⟩ := idx_s t
  match a with
  | ⟨0, _⟩ => show win0_9.index t (0 : Fin 2) * 512 + 1 * p.val = win0_12.index t (0 : Fin 2) * 512 + p.val; omega
  | ⟨1, _⟩ => show win0_9.index t (1 : Fin 2) * 1024 + 1 * k.val = k.val; omega

/-- The old cell state's block at a point, at (p, q): the old cell state at the point's row and column. -/
theorem blk_c (c : Dev nD) (t : Fin cfg0.N) (p : Fin 512) (q : Fin 256) :
    iblk m c 10 t (ix2 p q) = (m ((c : Thread nD τ).loc main_arg2)) (ix2 (rowOf t p) (colOf t q)) := by
  show V m c main_arg2 (((cfg0.win 10).blk t).view.emb (ix2 p q)) = _
  refine (congrFun (V_main_arg2 m c) _).trans (congrArg (m ((c : Thread nD τ).loc main_arg2)) (funext fun a => Fin.ext ?_))
  obtain ⟨-, -, -, -, e0, e1, -⟩ := idx_s t
  match a with
  | ⟨0, _⟩ => show win0_10.index t (0 : Fin 2) * 512 + 1 * p.val = win0_12.index t (0 : Fin 2) * 512 + p.val; omega
  | ⟨1, _⟩ => show win0_10.index t (1 : Fin 2) * 256 + 1 * q.val = win0_12.index t (1 : Fin 2) * 256 + q.val; omega

/-- Weight window 0's block at a point, at (κ, q): the weight matrix at row κ and the point's column. -/
theorem blk_w0 (c : Dev nD) (t : Fin cfg0.N) (κ : Fin 3072) (q : Fin 256) :
    iblk m c 0 t (ix2 κ q) = (m ((c : Thread nD τ).loc main_arg3)) (ix2 κ (colOf t q)) := by
  show V m c main_arg3 (((cfg0.win 0).blk t).view.emb (ix2 κ q)) = _
  refine (congrFun (V_main_arg3 m c) _).trans (congrArg (m ((c : Thread nD τ).loc main_arg3)) (funext fun a => Fin.ext ?_))
  obtain ⟨e0, e1⟩ := idx_w0 t
  match a with
  | ⟨0, _⟩ => show win0_0.index t (0 : Fin 2) * 3072 + 1 * κ.val = κ.val; omega
  | ⟨1, _⟩ => show win0_0.index t (1 : Fin 2) * 256 + 1 * q.val = win0_12.index t (1 : Fin 2) * 256 + q.val; omega

/-- Weight window 1's block at a point, at (κ, q): the weight matrix at row κ and the point's column. -/
theorem blk_w1 (c : Dev nD) (t : Fin cfg0.N) (κ : Fin 3072) (q : Fin 256) :
    iblk m c 1 t (ix2 κ q) = (m ((c : Thread nD τ).loc main_arg5)) (ix2 κ (colOf t q)) := by
  show V m c main_arg5 (((cfg0.win 1).blk t).view.emb (ix2 κ q)) = _
  refine (congrFun (V_main_arg5 m c) _).trans (congrArg (m ((c : Thread nD τ).loc main_arg5)) (funext fun a => Fin.ext ?_))
  obtain ⟨e0, e1⟩ := idx_w1 t
  match a with
  | ⟨0, _⟩ => show win0_1.index t (0 : Fin 2) * 3072 + 1 * κ.val = κ.val; omega
  | ⟨1, _⟩ => show win0_1.index t (1 : Fin 2) * 256 + 1 * q.val = win0_12.index t (1 : Fin 2) * 256 + q.val; omega

/-- Weight window 2's block at a point, at (κ, q): the weight matrix at row κ and the point's column. -/
theorem blk_w2 (c : Dev nD) (t : Fin cfg0.N) (κ : Fin 3072) (q : Fin 256) :
    iblk m c 2 t (ix2 κ q) = (m ((c : Thread nD τ).loc main_arg7)) (ix2 κ (colOf t q)) := by
  show V m c main_arg7 (((cfg0.win 2).blk t).view.emb (ix2 κ q)) = _
  refine (congrFun (V_main_arg7 m c) _).trans (congrArg (m ((c : Thread nD τ).loc main_arg7)) (funext fun a => Fin.ext ?_))
  obtain ⟨e0, e1⟩ := idx_w2 t
  match a with
  | ⟨0, _⟩ => show win0_2.index t (0 : Fin 2) * 3072 + 1 * κ.val = κ.val; omega
  | ⟨1, _⟩ => show win0_2.index t (1 : Fin 2) * 256 + 1 * q.val = win0_12.index t (1 : Fin 2) * 256 + q.val; omega

/-- Weight window 3's block at a point, at (κ, q): the weight matrix at row κ and the point's column. -/
theorem blk_w3 (c : Dev nD) (t : Fin cfg0.N) (κ : Fin 3072) (q : Fin 256) :
    iblk m c 3 t (ix2 κ q) = (m ((c : Thread nD τ).loc main_arg9)) (ix2 κ (colOf t q)) := by
  show V m c main_arg9 (((cfg0.win 3).blk t).view.emb (ix2 κ q)) = _
  refine (congrFun (V_main_arg9 m c) _).trans (congrArg (m ((c : Thread nD τ).loc main_arg9)) (funext fun a => Fin.ext ?_))
  obtain ⟨e0, e1⟩ := idx_w3 t
  match a with
  | ⟨0, _⟩ => show win0_3.index t (0 : Fin 2) * 3072 + 1 * κ.val = κ.val; omega
  | ⟨1, _⟩ => show win0_3.index t (1 : Fin 2) * 256 + 1 * q.val = win0_12.index t (1 : Fin 2) * 256 + q.val; omega

/-- Bias window 4's array as the region finds it: the bias laid out as one row. -/
theorem found_b4 (c : Dev nD) : (V m c main_v2 : S1x2048.Idx → EReal) = shapeCast S1x2048 (m ((c : Thread nD τ).loc main_arg4)) shapeCasts_S2048_S1x2048 := by
  dsimp only [V, hostOps0]; after_results; rfl

/-- Bias window 4's block at a point, at (0, q): the bias at the point's column. -/
theorem blk_b4 (c : Dev nD) (t : Fin cfg0.N) (q : Fin 256) :
    iblk m c 4 t (ix2 (0 : Fin 1) q) = (m ((c : Thread nD τ).loc main_arg4)) (ix1 (colOf t q)) := by
  show V m c main_v2 (((cfg0.win 4).blk t).view.emb (ix2 (0 : Fin 1) q)) = _
  refine (congrFun (found_b4 m c) _).trans ?_
  refine shapeCast_apply _ _ _ (ix1 (colOf t q)) ?_
  obtain ⟨e0, e1⟩ := idx_w4 t
  rw [Shape.rowMajor_val_one, Shape.rowMajor_val_two]
  show win0_12.index t (1 : Fin 2) * 256 + q.val = (win0_4.index t (0 : Fin 2) * 1 + 1 * 0) * 2048 + (win0_4.index t (1 : Fin 2) * 256 + 1 * q.val)
  omega

/-- Bias window 5's array as the region finds it: the bias laid out as one row. -/
theorem found_b5 (c : Dev nD) : (V m c main_v3 : S1x2048.Idx → EReal) = shapeCast S1x2048 (m ((c : Thread nD τ).loc main_arg6)) shapeCasts_S2048_S1x2048 := by
  dsimp only [V, hostOps0]; after_results; rfl

/-- Bias window 5's block at a point, at (0, q): the bias at the point's column. -/
theorem blk_b5 (c : Dev nD) (t : Fin cfg0.N) (q : Fin 256) :
    iblk m c 5 t (ix2 (0 : Fin 1) q) = (m ((c : Thread nD τ).loc main_arg6)) (ix1 (colOf t q)) := by
  show V m c main_v3 (((cfg0.win 5).blk t).view.emb (ix2 (0 : Fin 1) q)) = _
  refine (congrFun (found_b5 m c) _).trans ?_
  refine shapeCast_apply _ _ _ (ix1 (colOf t q)) ?_
  obtain ⟨e0, e1⟩ := idx_w5 t
  rw [Shape.rowMajor_val_one, Shape.rowMajor_val_two]
  show win0_12.index t (1 : Fin 2) * 256 + q.val = (win0_5.index t (0 : Fin 2) * 1 + 1 * 0) * 2048 + (win0_5.index t (1 : Fin 2) * 256 + 1 * q.val)
  omega

/-- Bias window 6's array as the region finds it: the bias laid out as one row. -/
theorem found_b6 (c : Dev nD) : (V m c main_v4 : S1x2048.Idx → EReal) = shapeCast S1x2048 (m ((c : Thread nD τ).loc main_arg8)) shapeCasts_S2048_S1x2048 := by
  dsimp only [V, hostOps0]; after_results; rfl

/-- Bias window 6's block at a point, at (0, q): the bias at the point's column. -/
theorem blk_b6 (c : Dev nD) (t : Fin cfg0.N) (q : Fin 256) :
    iblk m c 6 t (ix2 (0 : Fin 1) q) = (m ((c : Thread nD τ).loc main_arg8)) (ix1 (colOf t q)) := by
  show V m c main_v4 (((cfg0.win 6).blk t).view.emb (ix2 (0 : Fin 1) q)) = _
  refine (congrFun (found_b6 m c) _).trans ?_
  refine shapeCast_apply _ _ _ (ix1 (colOf t q)) ?_
  obtain ⟨e0, e1⟩ := idx_w6 t
  rw [Shape.rowMajor_val_one, Shape.rowMajor_val_two]
  show win0_12.index t (1 : Fin 2) * 256 + q.val = (win0_6.index t (0 : Fin 2) * 1 + 1 * 0) * 2048 + (win0_6.index t (1 : Fin 2) * 256 + 1 * q.val)
  omega

/-- Bias window 7's array as the region finds it: the bias laid out as one row. -/
theorem found_b7 (c : Dev nD) : (V m c main_v5 : S1x2048.Idx → EReal) = shapeCast S1x2048 (m ((c : Thread nD τ).loc main_arg10)) shapeCasts_S2048_S1x2048 := by
  dsimp only [V, hostOps0]; after_results; rfl

/-- Bias window 7's block at a point, at (0, q): the bias at the point's column. -/
theorem blk_b7 (c : Dev nD) (t : Fin cfg0.N) (q : Fin 256) :
    iblk m c 7 t (ix2 (0 : Fin 1) q) = (m ((c : Thread nD τ).loc main_arg10)) (ix1 (colOf t q)) := by
  show V m c main_v5 (((cfg0.win 7).blk t).view.emb (ix2 (0 : Fin 1) q)) = _
  refine (congrFun (found_b7 m c) _).trans ?_
  refine shapeCast_apply _ _ _ (ix1 (colOf t q)) ?_
  obtain ⟨e0, e1⟩ := idx_w7 t
  rw [Shape.rowMajor_val_one, Shape.rowMajor_val_two]
  show win0_12.index t (1 : Fin 2) * 256 + q.val = (win0_7.index t (0 : Fin 2) * 1 + 1 * 0) * 2048 + (win0_7.index t (1 : Fin 2) * 256 + 1 * q.val)
  omega

/-! ## A point's values are the specification's, at the point's rows and columns -/

/-- A gate's pre-activation over a point's blocks is the specification's over the arrays, once each block entry is the
    array's entry at the point's row and column. -/
theorem wpre_eq (hb : S512x2048.Idx → EReal) (xb : S512x1024.Idx → EReal) (w : S3072x256.Idx → EReal) (bb : S1x256.Idx → EReal)
    (h : (⟨2, ![4096, 2048]⟩ : Shape).Idx → EReal) (x : (⟨2, ![4096, 1024]⟩ : Shape).Idx → EReal)
    (W : (⟨2, ![3072, 2048]⟩ : Shape).Idx → EReal) (b : (⟨1, ![2048]⟩ : Shape).Idx → EReal)
    (p : Fin 512) (q : Fin 256) (r : Fin 4096) (j : Fin 2048)
    (eh : ∀ k : Fin 2048, hb (ix2 p k) = h (ix2 r k)) (ex : ∀ k : Fin 1024, xb (ix2 p k) = x (ix2 r k))
    (ew : ∀ κ : Fin 3072, w (ix2 κ q) = W (ix2 κ j)) (eb : bb (ix2 (0 : Fin 1) q) = b (ix1 j)) :
    wpre hb xb w bb p q = pre h x W b r j := by
  unfold wpre pre
  refine congrArg₂ (· + ·) (congrArg₂ (· + ·) (Finset.sum_congr rfl fun k _ => ?_) (Finset.sum_congr rfl fun k _ => ?_)) eb
  · rw [eh k, ew (rowH k)]
  · rw [ex k, ew (rowX k)]

/-- The four gates' pre-activations at a point. -/
theorem pre_f (c : Dev nD) (t : Fin cfg0.N) (p : Fin 512) (q : Fin 256) :
    wpre (iblk m c 8 t) (iblk m c 9 t) (iblk m c 0 t) (iblk m c 4 t) p q
      = pre (m ((c : Thread nD τ).loc main_arg1)) (m ((c : Thread nD τ).loc main_arg0)) (m ((c : Thread nD τ).loc main_arg3)) (m ((c : Thread nD τ).loc main_arg4)) (rowOf t p) (colOf t q) :=
  wpre_eq (iblk m c 8 t) (iblk m c 9 t) (iblk m c 0 t) (iblk m c 4 t) _ _ _ _ p q _ _
    (blk_h m c t p) (blk_x m c t p) (fun κ => blk_w0 m c t κ q) (blk_b4 m c t q)
theorem pre_i (c : Dev nD) (t : Fin cfg0.N) (p : Fin 512) (q : Fin 256) :
    wpre (iblk m c 8 t) (iblk m c 9 t) (iblk m c 1 t) (iblk m c 5 t) p q
      = pre (m ((c : Thread nD τ).loc main_arg1)) (m ((c : Thread nD τ).loc main_arg0)) (m ((c : Thread nD τ).loc main_arg5)) (m ((c : Thread nD τ).loc main_arg6)) (rowOf t p) (colOf t q) :=
  wpre_eq (iblk m c 8 t) (iblk m c 9 t) (iblk m c 1 t) (iblk m c 5 t) _ _ _ _ p q _ _
    (blk_h m c t p) (blk_x m c t p) (fun κ => blk_w1 m c t κ q) (blk_b5 m c t q)
theorem pre_o (c : Dev nD) (t : Fin cfg0.N) (p : Fin 512) (q : Fin 256) :
    wpre (iblk m c 8 t) (iblk m c 9 t) (iblk m c 2 t) (iblk m c 6 t) p q
      = pre (m ((c : Thread nD τ).loc main_arg1)) (m ((c : Thread nD τ).loc main_arg0)) (m ((c : Thread nD τ).loc main_arg7)) (m ((c : Thread nD τ).loc main_arg8)) (rowOf t p) (colOf t q) :=
  wpre_eq (iblk m c 8 t) (iblk m c 9 t) (iblk m c 2 t) (iblk m c 6 t) _ _ _ _ p q _ _
    (blk_h m c t p) (blk_x m c t p) (fun κ => blk_w2 m c t κ q) (blk_b6 m c t q)
theorem pre_c (c : Dev nD) (t : Fin cfg0.N) (p : Fin 512) (q : Fin 256) :
    wpre (iblk m c 8 t) (iblk m c 9 t) (iblk m c 3 t) (iblk m c 7 t) p q
      = pre (m ((c : Thread nD τ).loc main_arg1)) (m ((c : Thread nD τ).loc main_arg0)) (m ((c : Thread nD τ).loc main_arg9)) (m ((c : Thread nD τ).loc main_arg10)) (rowOf t p) (colOf t q) :=
  wpre_eq (iblk m c 8 t) (iblk m c 9 t) (iblk m c 3 t) (iblk m c 7 t) _ _ _ _ p q _ _
    (blk_h m c t p) (blk_x m c t p) (fun κ => blk_w3 m c t κ q) (blk_b7 m c t q)

/-- The new cell state as one function of the argument arrays. -/
abbrev cellArr (c : Dev nD) : S4096x2048.Idx → EReal :=
  cell (m ((c : Thread nD τ).loc main_arg0))
    (m ((c : Thread nD τ).loc main_arg1))
    (m ((c : Thread nD τ).loc main_arg2))
    (m ((c : Thread nD τ).loc main_arg3))
    (m ((c : Thread nD τ).loc main_arg4))
    (m ((c : Thread nD τ).loc main_arg5))
    (m ((c : Thread nD τ).loc main_arg6))
    (m ((c : Thread nD τ).loc main_arg9))
    (m ((c : Thread nD τ).loc main_arg10))

/-- The new hidden state as one function of the argument arrays. -/
abbrev hiddenArr (c : Dev nD) : S4096x2048.Idx → EReal :=
  hidden (m ((c : Thread nD τ).loc main_arg0))
    (m ((c : Thread nD τ).loc main_arg1))
    (m ((c : Thread nD τ).loc main_arg2))
    (m ((c : Thread nD τ).loc main_arg3))
    (m ((c : Thread nD τ).loc main_arg4))
    (m ((c : Thread nD τ).loc main_arg5))
    (m ((c : Thread nD τ).loc main_arg6))
    (m ((c : Thread nD τ).loc main_arg7))
    (m ((c : Thread nD τ).loc main_arg8))
    (m ((c : Thread nD τ).loc main_arg9))
    (m ((c : Thread nD τ).loc main_arg10))

/-- Entry (p, q) of a point's output block is entry (rowOf, colOf) of the array. -/
theorem emb12 (t : Fin cfg0.N) (p : Fin 512) (q : Fin 256) :
    ((cfg0.win 12).blk t).view.emb (ix2 p q) = ix2 (rowOf t p) (colOf t q) := funext fun a => Fin.ext (by
  match a with
  | ⟨0, _⟩ => show win0_12.index t (0 : Fin 2) * 512 + 1 * p.val = win0_12.index t (0 : Fin 2) * 512 + p.val; omega
  | ⟨1, _⟩ => show win0_12.index t (1 : Fin 2) * 256 + 1 * q.val = win0_12.index t (1 : Fin 2) * 256 + q.val; omega)

theorem emb11 (t : Fin cfg0.N) (p : Fin 512) (q : Fin 256) :
    ((cfg0.win 11).blk t).view.emb (ix2 p q) = ix2 (rowOf t p) (colOf t q) := funext fun a => Fin.ext (by
  obtain ⟨-, -, -, -, -, -, e0, e1⟩ := idx_s t
  match a with
  | ⟨0, _⟩ => show win0_11.index t (0 : Fin 2) * 512 + 1 * p.val = win0_12.index t (0 : Fin 2) * 512 + p.val; omega
  | ⟨1, _⟩ => show win0_11.index t (1 : Fin 2) * 256 + 1 * q.val = win0_12.index t (1 : Fin 2) * 256 + q.val; omega)

/-- The cell state a point stores, at (p, q), is the specification at the point's row and column. -/
theorem cell_at (c : Dev nD) (t : Fin cfg0.N) (p : Fin 512) (q : Fin 256) :
    blockCell (iblk m c 8 t) (iblk m c 9 t) (iblk m c 10 t) (iblk m c 0 t) (iblk m c 4 t) (iblk m c 1 t) (iblk m c 5 t)
        (iblk m c 3 t) (iblk m c 7 t) p q = cellArr m c (ix2 (rowOf t p) (colOf t q)) := by
  unfold blockCell
  rw [pre_f m c t p q, pre_i m c t p q, pre_c m c t p q, blk_c m c t p q]
  rfl

/-- WHAT POINT t WRITES BACK to the cell-state array is block t of the specification's cell state. -/
theorem flushed12_eq (c : Dev nD) (t : Fin cfg0.N) :
    (dats m 0 c).flushed 12 t = ((cfg0.win 12).blk t).view.read (Elt Ideal) (cellArr m c) := by
  rw [Value.flushed12]
  funext y
  obtain ⟨p, q, rfl⟩ : ∃ (p : Fin 512) (q : Fin 256), y = ix2 p q := ⟨y 0, y 1, eq_ix2 y⟩
  show out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 p q) = cellArr m c (((cfg0.win 12).blk t).view.emb (ix2 p q))
  rw [emb12]
  exact (point_cell (iblk m c 0 t) (iblk m c 1 t) (iblk m c 2 t) (iblk m c 3 t) (iblk m c 4 t) (iblk m c 5 t) (iblk m c 6 t) (iblk m c 7 t) (iblk m c 8 t) (iblk m c 9 t) (iblk m c 10 t) p q).trans (cell_at m c t p q)

/-- WHAT POINT t WRITES BACK to the hidden-state array is block t of the specification's hidden state. -/
theorem flushed11_eq (c : Dev nD) (t : Fin cfg0.N) :
    (dats m 0 c).flushed 11 t = ((cfg0.win 11).blk t).view.read (Elt Ideal) (hiddenArr m c) := by
  rw [Value.flushed11]
  funext y
  obtain ⟨p, q, rfl⟩ : ∃ (p : Fin 512) (q : Fin 256), y = ix2 p q := ⟨y 0, y 1, eq_ix2 y⟩
  show out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 p q) = hiddenArr m c (((cfg0.win 11).blk t).view.emb (ix2 p q))
  rw [emb11]
  refine (point_hidden (iblk m c 0 t) (iblk m c 1 t) (iblk m c 2 t) (iblk m c 3 t) (iblk m c 4 t) (iblk m c 5 t) (iblk m c 6 t) (iblk m c 7 t) (iblk m c 8 t) (iblk m c 9 t) (iblk m c 10 t) p q).trans ?_
  unfold blockHidden
  rw [pre_o m c t p q, cell_at m c t p q]
  rfl

/-! ## The blocks tile the arrays -/

/-- An index of a result array is in point t's block iff each coordinate is in the block's range on its axis. -/
theorem mem_blk12 (t : Fin cfg0.N) (i : S4096x2048.Idx) :
    i ∈ ((cfg0.win 12).blk t).view.set ↔ ∀ a : Fin 2, win0_12.index t a * S512x256.size a ≤ (i a).val ∧ (i a).val < win0_12.index t a * S512x256.size a + S512x256.size a := by
  show i ∈ ((View.whole main_v6_1).slice (win0_12.rect t)).set ↔ _
  rw [View.set_slice_whole, Rect.mem_set_unit]
  exact Iff.rfl

theorem mem_blk11 (t : Fin cfg0.N) (i : S4096x2048.Idx) :
    i ∈ ((cfg0.win 11).blk t).view.set ↔ ∀ a : Fin 2, win0_11.index t a * S512x256.size a ≤ (i a).val ∧ (i a).val < win0_11.index t a * S512x256.size a + S512x256.size a := by
  show i ∈ ((View.whole main_v6_0).slice (win0_11.rect t)).set ↔ _
  rw [View.set_slice_whole, Rect.mem_set_unit]
  exact Iff.rfl

/-- Every index of the cell-state array is in some point's block: the point at block row i₀ / 512, block column i₁ / 256. -/
theorem cover12 (i : S4096x2048.Idx) : ∃ t : Fin cfg0.N, (cfg0.win 12).flush t = true ∧ i ∈ ((cfg0.win 12).blk t).view.set := by
  have hi0 : (i 0).val < 4096 := (i 0).isLt
  have hi1 : (i 1).val < 2048 := (i 1).isLt
  obtain ⟨t, ht⟩ := idx_onto ⟨(i 0).val / 512, by omega⟩ ⟨(i 1).val / 256, by omega⟩
  have q0 : win0_12.index t (0 : Fin 2) = (i 0).val / 512 := congrFun ht 0
  have q1 : win0_12.index t (1 : Fin 2) = (i 1).val / 256 := congrFun ht 1
  refine ⟨t, flush0_12 t, ?_⟩
  rw [mem_blk12]
  intro a
  match a with
  | ⟨0, _⟩ => show win0_12.index t (0 : Fin 2) * 512 ≤ (i 0).val ∧ (i 0).val < win0_12.index t (0 : Fin 2) * 512 + 512; omega
  | ⟨1, _⟩ => show win0_12.index t (1 : Fin 2) * 256 ≤ (i 1).val ∧ (i 1).val < win0_12.index t (1 : Fin 2) * 256 + 256; omega

/-- The same for the hidden-state array. -/
theorem cover11 (i : S4096x2048.Idx) : ∃ t : Fin cfg0.N, (cfg0.win 11).flush t = true ∧ i ∈ ((cfg0.win 11).blk t).view.set := by
  have hi0 : (i 0).val < 4096 := (i 0).isLt
  have hi1 : (i 1).val < 2048 := (i 1).isLt
  obtain ⟨t, ht⟩ := idx_onto ⟨(i 0).val / 512, by omega⟩ ⟨(i 1).val / 256, by omega⟩
  have q0 : win0_12.index t (0 : Fin 2) = (i 0).val / 512 := congrFun ht 0
  have q1 : win0_12.index t (1 : Fin 2) = (i 1).val / 256 := congrFun ht 1
  obtain ⟨-, -, -, -, -, -, e0, e1⟩ := idx_s t
  refine ⟨t, flush0_11 t, ?_⟩
  rw [mem_blk11]
  intro a
  match a with
  | ⟨0, _⟩ => show win0_11.index t (0 : Fin 2) * 512 ≤ (i 0).val ∧ (i 0).val < win0_11.index t (0 : Fin 2) * 512 + 512; omega
  | ⟨1, _⟩ => show win0_11.index t (1 : Fin 2) * 256 ≤ (i 1).val ∧ (i 1).val < win0_11.index t (1 : Fin 2) * 256 + 256; omega

/-! ## The result arrays, and the kernel's run -/

/-- After the run the cell-state array holds the specification's cell state. -/
theorem final12 (c : Dev nD) : (dats m 0 c).arrAt 12 cfg0.N = cellArr m c :=
  (dats m 0 c).arrAt_eq_of_cover 12 (cellArr m c) (fun t _ => flushed12_eq m c t) cover12

/-- After the run the hidden-state array holds the specification's hidden state. -/
theorem final11 (c : Dev nD) : (dats m 0 c).arrAt 11 cfg0.N = hiddenArr m c :=
  (dats m 0 c).arrAt_eq_of_cover 11 (hiddenArr m c) (fun t _ => flushed11_eq m c t) cover11

/-- THE KERNEL'S RUN: every weakly fair execution ends with the hidden state and the cell state of the specification
    in the two result arrays, and the eleven arguments unchanged. -/
theorem run : θ_run defs (onTc (τ := τ) (main (F := Ideal))) ⟨m, fun _ => 0, ρ⟩ fun r => ∀ c : Dev nD,
      r.2.mem ((c : Thread nD τ).loc main_v6_0) = hiddenArr m c
      ∧ r.2.mem ((c : Thread nD τ).loc main_v6_1) = cellArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final11 m c), (h c).2.1.trans (final12 m c), (h c).2.2⟩)
    (Value.run_blocks m ρ)

end Cert.KernelIdeal.Result

end
-- ==== Proof.RefCell.lean ====
/-
  The reference computes the cell's two functions.

  The reference lays the row of `h` and the row of `x` side by side (3072 columns), the four gates' weight matrices
  side by side (8192 columns: gate g's columns are 2048·g … 2048·g + 2047) and the four biases end to end, takes ONE
  matrix product and adds the bias row. Read at row `r` and column `2048·g + j`, a joined array is the piece the column
  falls in, so that entry is Σ_{κ < 3072} [h | x] (r, κ) · W_g (κ, j) + b_g j; splitting the sum at κ = 2048 gives the
  gate's pre-activation as the cell's specification writes it. The reference then cuts the four gates' columns back
  out, and spells the logistic function as one over one plus the exponential of the negation, with the constant 1.0.
-/
import proofs.«425110_j29600914604232_3_alg».proof.Proof.Gen.ReferenceIdeal.Read
import proofs.«425110_j29600914604232_3_alg».proof.Proof.Spec
import Idealize.ShloMosaic.Lib.Pipeline.Value
import Idealize.ShloMosaic.Lib.ValueIdx

noncomputable section

open scoped BigOperators

namespace Cert.ReferenceIdeal.Cell

open Cert.ReferenceIdeal Cert.ReferenceIdeal.Read Idealize.ShloMosaic Idealize.ShloMosaic.ValueIdx Cert.Lstm

/-- The arguments' types: the input, a state, a weight matrix, a bias. -/
abbrev AX := (⟨S4096x1024, .f32⟩ : BufTy).Contents (Elt Ideal)
abbrev AH := (⟨S4096x2048, .f32⟩ : BufTy).Contents (Elt Ideal)
abbrev AW := (⟨S3072x2048, .f32⟩ : BufTy).Contents (Elt Ideal)
abbrev AB := (⟨S2048, .f32⟩ : BufTy).Contents (Elt Ideal)

/-! ## The joined arrays read at an index -/

/-- [h | x] at a column below 2048 is `h` there. -/
theorem joined_h (x0 : AX) (x1 : AH) (r : Fin 4096) (k : Fin 2048) (i : S4096x3072.Idx)
    (h0 : (i 0).val = r.val) (h1 : (i 1).val = k.val) : val_main_v0 (F := Ideal) x0 x1 i = x1 (ix2 r k) := by
  unfold val_main_v0
  exact concatenate_pair_apply_left _ x1 x0 _ i rfl (ix2 r k) (fun b => match b with
    | ⟨0, _⟩ => h0.symm
    | ⟨1, _⟩ => h1.symm)

/-- [h | x] at column 2048 + k is `x` at column k. -/
theorem joined_x (x0 : AX) (x1 : AH) (r : Fin 4096) (k : Fin 1024) (i : S4096x3072.Idx)
    (h0 : (i 0).val = r.val) (h1 : (i 1).val = 2048 + k.val) : val_main_v0 (F := Ideal) x0 x1 i = x0 (ix2 r k) := by
  unfold val_main_v0
  exact concatenate_pair_apply_right _ x1 x0 _ i rfl rfl (ix2 r k) (fun b => match b with
    | ⟨0, _⟩ => fun _ => h0.symm
    | ⟨1, _⟩ => fun hne => absurd rfl hne) (by show k.val + 2048 = (i 1).val; omega)

/-- The four weight matrices side by side, at column P + j where P is the width of the pieces before piece g: piece g
    at column j. -/
theorem stacked_w (x3 x5 x7 x9 : AW) (g : Nat) (hg : g < 4) (W : AW) (P : Nat)
    (hW : ([⟨S3072x2048, x3⟩, ⟨S3072x2048, x5⟩, ⟨S3072x2048, x7⟩, ⟨S3072x2048, x9⟩] : List ((s : Shape) × (s.Idx → Elt Ideal .f32)))[g]'hg = ⟨S3072x2048, W⟩)
    (hP : (((([⟨S3072x2048, x3⟩, ⟨S3072x2048, x5⟩, ⟨S3072x2048, x7⟩, ⟨S3072x2048, x9⟩] : List ((s : Shape) × (s.Idx → Elt Ideal .f32))).take g).map (·.1)).map
        (fun s => if h : s.rank = S3072x8192.rank then s.size ((1 : Fin S3072x8192.rank).cast h.symm) else 0)).sum = P)
    (κ : Fin 3072) (j : Fin 2048) (i : S3072x8192.Idx) (h0 : (i 0).val = κ.val) (h1 : (i 1).val = P + j.val) :
    val_main_v1 (F := Ideal) x3 x5 x7 x9 i = W (ix2 κ j) := by
  unfold val_main_v1
  exact concatenate_apply_piece _ _ _ i g (by exact hg) S3072x2048 W hW rfl P hP (ix2 κ j) (fun b => match b with
    | ⟨0, _⟩ => fun _ => h0.symm
    | ⟨1, _⟩ => fun hne => absurd rfl hne) h1.symm

/-- The four biases end to end, at position P + j: piece g at position j. -/
theorem stacked_b (x4 x6 x8 x10 : AB) (g : Nat) (hg : g < 4) (b : AB) (P : Nat)
    (hb : ([⟨S2048, x4⟩, ⟨S2048, x6⟩, ⟨S2048, x8⟩, ⟨S2048, x10⟩] : List ((s : Shape) × (s.Idx → Elt Ideal .f32)))[g]'hg = ⟨S2048, b⟩)
    (hP : (((([⟨S2048, x4⟩, ⟨S2048, x6⟩, ⟨S2048, x8⟩, ⟨S2048, x10⟩] : List ((s : Shape) × (s.Idx → Elt Ideal .f32))).take g).map (·.1)).map
        (fun s => if h : s.rank = S8192.rank then s.size ((0 : Fin S8192.rank).cast h.symm) else 0)).sum = P)
    (j : Fin 2048) (i : S8192.Idx) (h0 : (i 0).val = P + j.val) :
    val_main_v2 (F := Ideal) x4 x6 x8 x10 i = b (ix1 j) := by
  unfold val_main_v2
  exact concatenate_apply_piece _ _ _ i g (by exact hg) S2048 b hb rfl P hP (ix1 j) (fun b' => match b' with
    | ⟨0, _⟩ => fun hne => absurd rfl hne) h0.symm

/-! ## The pre-activations -/

/-- THE PRODUCT PLUS THE BIAS ROW at (r, P + j), where the joined weights there are `W` at column j and the joined
    biases there are `b` at j: the gate's pre-activation. The one sum over 3072 rows splits at row 2048. -/
theorem gates_at (x0 : AX) (x1 : AH) (x3 x5 x7 x9 : AW) (x4 x6 x8 x10 : AB) (W : AW) (b : AB) (P : Nat)
    (r : Fin 4096) (j : Fin 2048)
    (hW : ∀ (κ : Fin 3072) (i' : S3072x8192.Idx), (i' 0).val = κ.val → (i' 1).val = P + j.val →
      val_main_v1 (F := Ideal) x3 x5 x7 x9 i' = W (ix2 κ j))
    (hb : ∀ i' : S8192.Idx, (i' 0).val = P + j.val → val_main_v2 (F := Ideal) x4 x6 x8 x10 i' = b (ix1 j))
    (i : S4096x8192.Idx) (h0 : (i 0).val = r.val) (h1 : (i 1).val = P + j.val) :
    val_main_v6 (F := Ideal) x0 x1 x3 x4 x5 x6 x7 x8 x9 x10 i = pre x1 x0 W b r j := by
  rw [val_main_v6_apply, val_main_v3_apply, val_main_v5_apply, val_main_v4_apply, sum_rows_split]
  unfold pre
  refine congrArg₂ (· + ·) (congrArg₂ (· + ·) (Finset.sum_congr rfl fun k _ => ?_) (Finset.sum_congr rfl fun k _ => ?_)) ?_
  · rw [joined_h x0 x1 r k _ h0 rfl, hW (rowH k) _ rfl h1]
  · rw [joined_x x0 x1 r k _ h0 rfl, hW (rowX k) _ rfl h1]
  · exact hb _ h1

/-- The forget gate's columns, cut out: its pre-activation. -/
theorem slice_f (x0 : AX) (x1 : AH) (x3 : AW) (x4 : AB) (x5 : AW) (x6 : AB) (x7 : AW) (x8 : AB) (x9 : AW) (x10 : AB)
    (i : S4096x2048.Idx) :
    val_main_v7 (F := Ideal) x0 x1 x3 x4 x5 x6 x7 x8 x9 x10 i = pre x1 x0 x3 x4 (i 0) (i 1) := by
  rw [val_main_v7_apply]
  exact gates_at x0 x1 x3 x5 x7 x9 x4 x6 x8 x10 x3 x4 0 (i 0) (i 1)
    (fun κ i' e0 e1 => stacked_w x3 x5 x7 x9 0 (by decide) x3 0 rfl rfl κ (i 1) i' e0 e1)
    (fun i' e => stacked_b x4 x6 x8 x10 0 (by decide) x4 0 rfl rfl (i 1) i' e)
    _ rfl (by show (i 1).val = 0 + (i 1).val; omega)

/-- The input gate's columns. -/
theorem slice_i (x0 : AX) (x1 : AH) (x3 : AW) (x4 : AB) (x5 : AW) (x6 : AB) (x7 : AW) (x8 : AB) (x9 : AW) (x10 : AB)
    (i : S4096x2048.Idx) :
    val_main_v8 (F := Ideal) x0 x1 x3 x4 x5 x6 x7 x8 x9 x10 i = pre x1 x0 x5 x6 (i 0) (i 1) := by
  rw [val_main_v8_apply]
  exact gates_at x0 x1 x3 x5 x7 x9 x4 x6 x8 x10 x5 x6 2048 (i 0) (i 1)
    (fun κ i' e0 e1 => stacked_w x3 x5 x7 x9 1 (by decide) x5 2048 rfl rfl κ (i 1) i' e0 e1)
    (fun i' e => stacked_b x4 x6 x8 x10 1 (by decide) x6 2048 rfl rfl (i 1) i' e)
    _ rfl rfl

/-- The output gate's columns. -/
theorem slice_o (x0 : AX) (x1 : AH) (x3 : AW) (x4 : AB) (x5 : AW) (x6 : AB) (x7 : AW) (x8 : AB) (x9 : AW) (x10 : AB)
    (i : S4096x2048.Idx) :
    val_main_v9 (F := Ideal) x0 x1 x3 x4 x5 x6 x7 x8 x9 x10 i = pre x1 x0 x7 x8 (i 0) (i 1) := by
  rw [val_main_v9_apply]
  exact gates_at x0 x1 x3 x5 x7 x9 x4 x6 x8 x10 x7 x8 4096 (i 0) (i 1)
    (fun κ i' e0 e1 => stacked_w x3 x5 x7 x9 2 (by decide) x7 4096 rfl rfl κ (i 1) i' e0 e1)
    (fun i' e => stacked_b x4 x6 x8 x10 2 (by decide) x8 4096 rfl rfl (i 1) i' e)
    _ rfl rfl

/-- The candidate's columns. -/
theorem slice_c (x0 : AX) (x1 : AH) (x3 : AW) (x4 : AB) (x5 : AW) (x6 : AB) (x7 : AW) (x8 : AB) (x9 : AW) (x10 : AB)
    (i : S4096x2048.Idx) :
    val_main_v10 (F := Ideal) x0 x1 x3 x4 x5 x6 x7 x8 x9 x10 i = pre x1 x0 x9 x10 (i 0) (i 1) := by
  rw [val_main_v10_apply]
  exact gates_at x0 x1 x3 x5 x7 x9 x4 x6 x8 x10 x9 x10 6144 (i 0) (i 1)
    (fun κ i' e0 e1 => stacked_w x3 x5 x7 x9 3 (by decide) x9 6144 rfl rfl κ (i 1) i' e0 e1)
    (fun i' e => stacked_b x4 x6 x8 x10 3 (by decide) x10 6144 rfl rfl (i 1) i' e)
    _ rfl rfl

/-! ## The activations and the two results -/

/-- The constant 1.0 spread over the array is the number one at every entry (six copies in the program). -/
theorem one13 (i : S4096x2048.Idx) : val_main_v13 (F := Ideal) i = 1 := by
  rw [val_main_v13_apply, val_main_cst_apply]; exact word_one
theorem one15 (i : S4096x2048.Idx) : val_main_v15 (F := Ideal) i = 1 := by
  rw [val_main_v15_apply, val_main_cst_0_apply]; exact word_one
theorem one19 (i : S4096x2048.Idx) : val_main_v19 (F := Ideal) i = 1 := by
  rw [val_main_v19_apply, val_main_cst_1_apply]; exact word_one
theorem one21 (i : S4096x2048.Idx) : val_main_v21 (F := Ideal) i = 1 := by
  rw [val_main_v21_apply, val_main_cst_2_apply]; exact word_one
theorem one25 (i : S4096x2048.Idx) : val_main_v25 (F := Ideal) i = 1 := by
  rw [val_main_v25_apply, val_main_cst_3_apply]; exact word_one
theorem one27 (i : S4096x2048.Idx) : val_main_v27 (F := Ideal) i = 1 := by
  rw [val_main_v27_apply, val_main_cst_4_apply]; exact word_one

/-- The forget gate's activation: one over one plus the exponential of the negated pre-activation, the logistic
    function of it. -/
theorem act_f (x0 : AX) (x1 : AH) (x3 : AW) (x4 : AB) (x5 : AW) (x6 : AB) (x7 : AW) (x8 : AB) (x9 : AW) (x10 : AB) (i : S4096x2048.Idx) :
    val_main_v16 (F := Ideal) x0 x1 x3 x4 x5 x6 x7 x8 x9 x10 i = Ideal.logistic (pre x1 x0 x3 x4 (i 0) (i 1)) := by
  rw [val_main_v16_apply, val_main_v14_apply, val_main_v12_apply, val_main_v11_apply, one15, one13, slice_f]
  rfl

/-- The input gate's activation. -/
theorem act_i (x0 : AX) (x1 : AH) (x3 : AW) (x4 : AB) (x5 : AW) (x6 : AB) (x7 : AW) (x8 : AB) (x9 : AW) (x10 : AB) (i : S4096x2048.Idx) :
    val_main_v22 (F := Ideal) x0 x1 x3 x4 x5 x6 x7 x8 x9 x10 i = Ideal.logistic (pre x1 x0 x5 x6 (i 0) (i 1)) := by
  rw [val_main_v22_apply, val_main_v20_apply, val_main_v18_apply, val_main_v17_apply, one21, one19, slice_i]
  rfl

/-- The output gate's activation. -/
theorem act_o (x0 : AX) (x1 : AH) (x3 : AW) (x4 : AB) (x5 : AW) (x6 : AB) (x7 : AW) (x8 : AB) (x9 : AW) (x10 : AB) (i : S4096x2048.Idx) :
    val_main_v28 (F := Ideal) x0 x1 x3 x4 x5 x6 x7 x8 x9 x10 i = Ideal.logistic (pre x1 x0 x7 x8 (i 0) (i 1)) := by
  rw [val_main_v28_apply, val_main_v26_apply, val_main_v24_apply, val_main_v23_apply, one27, one25, slice_o]
  rfl

/-- THE REFERENCE'S NEW CELL STATE is the cell's specification. -/
theorem cell_eq (x0 : AX) (x1 x2 : AH) (x3 : AW) (x4 : AB) (x5 : AW) (x6 : AB) (x7 : AW) (x8 : AB) (x9 : AW) (x10 : AB) :
    val_main_v32 (F := Ideal) x0 x1 x2 x3 x4 x5 x6 x7 x8 x9 x10 = cell x0 x1 x2 x3 x4 x5 x6 x9 x10 := by
  funext i
  rw [val_main_v32_apply, val_main_v30_apply, val_main_v31_apply, val_main_v29_apply, act_f, act_i, slice_c]
  rfl

/-- THE REFERENCE'S NEW HIDDEN STATE is the cell's specification. -/
theorem hidden_eq (x0 : AX) (x1 x2 : AH) (x3 : AW) (x4 : AB) (x5 : AW) (x6 : AB) (x7 : AW) (x8 : AB) (x9 : AW) (x10 : AB) :
    val_main_v34 (F := Ideal) x0 x1 x2 x3 x4 x5 x6 x7 x8 x9 x10 = hidden x0 x1 x2 x3 x4 x5 x6 x7 x8 x9 x10 := by
  funext i
  rw [val_main_v34_apply, val_main_v33_apply, act_o, cell_eq]
  rfl

end Cert.ReferenceIdeal.Cell

end
-- ==== Proof.lean ====
/-
  A long short-term memory cell: the blocked kernel against the fused reference, over the extended reals.

  Both programs take a batch of 4096 rows — the input `x` (1024 columns), the previous hidden state `h` and cell state
  `c` (2048 columns each) — and, for each of the forget, input, output and candidate gates, a 3072 × 2048 weight matrix
  and a bias of 2048 entries. With pre r j = Σ_{k < 2048} h (r, k) · W (k, j) + Σ_{k < 1024} x (r, k) · W (2048 + k, j) + b j
  for a gate, σ the logistic function, the results are

      cell = σ (pre_f) · c + σ (pre_i) · tanh (pre_c)          hidden = σ (pre_o) · tanh (cell).

  THE KERNEL works on an 8 × 8 grid of 512 × 256 output blocks. A point multiplies its 512 rows of `h` by the first 2048
  rows of each gate's 256 weight columns and its 512 rows of `x` by the last 1024 rows, each product into a zero
  accumulator, adds the two and the bias row, applies the logistic function or the hyperbolic tangent, and stores the
  two blocks. The narrowing of `h`, `x` and the weights to a shorter float format changes no value over the extended
  reals. The blocks tile the results, so each result array ends holding its function of the arguments.

  THE REFERENCE joins `h` and `x` into rows of 3072 entries and the four weight matrices into 8192 columns, takes one
  product, adds the joined biases, cuts the four gates' columns apart again and spells the logistic function as
  1 / (1 + exp (−v)). Its one sum over 3072 rows is the kernel's two sums: a sum over the extended reals may be split
  and regrouped freely (addition there is associative and commutative), so no entry needs to be finite and the
  precondition is not used.

  The kernel's run is in Proof/KernelArray.lean (over Proof/KernelPoint.lean and Proof/KernelGate.lean), the reference's
  functions in Proof/RefCell.lean, the cell's functions and the split of the sum in Proof/Spec.lean, and a matrix
  product read at an index in Proof/LibDot.lean. The kernel's idealization rewrote no operation, so there is nothing to
  preserve beyond the program's own text.
-/
import proofs.«425110_j29600914604232_3_alg».proof.Defs
import proofs.«425110_j29600914604232_3_alg».proof.Proof.Gen.Kernel
import proofs.«425110_j29600914604232_3_alg».proof.Proof.Gen.Kernel.Skeleton
import proofs.«425110_j29600914604232_3_alg».proof.Proof.Gen.Kernel.Launch
import proofs.«425110_j29600914604232_3_alg».proof.Proof.Gen.Kernel.Points
import proofs.«425110_j29600914604232_3_alg».proof.Proof.Gen.Kernel.Frame
import proofs.«425110_j29600914604232_3_alg».proof.Proof.Gen.KernelIdeal
import proofs.«425110_j29600914604232_3_alg».proof.Proof.Gen.KernelIdeal.Skeleton
import proofs.«425110_j29600914604232_3_alg».proof.Proof.Gen.KernelIdeal.Launch
import proofs.«425110_j29600914604232_3_alg».proof.Proof.Gen.KernelIdeal.Points
import proofs.«425110_j29600914604232_3_alg».proof.Proof.Gen.KernelIdeal.Frame
import proofs.«425110_j29600914604232_3_alg».proof.Proof.Gen.ReferenceIdeal
import proofs.«425110_j29600914604232_3_alg».proof.Proof.Gen.Pre_finite_inputs
import proofs.«425110_j29600914604232_3_alg».proof.Proof.Gen.KernelIdeal.Value
import proofs.«425110_j29600914604232_3_alg».proof.Proof.Gen.ReferenceIdeal.Run
import proofs.«425110_j29600914604232_3_alg».proof.Proof.Gen.ReferenceIdeal.Read
import proofs.«425110_j29600914604232_3_alg».proof.Proof.KernelArray
import proofs.«425110_j29600914604232_3_alg».proof.Proof.RefCell
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments as they were: its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- From arguments that agree, both programs end with the cell's hidden state and cell state in their result arrays:
    the kernel block by block, the reference through its one joined product. -/
theorem algebraic : Cert.algebraic_KernelIdeal_ReferenceIdeal := by
  intro m ρ m' ρ' _ hagree
  refine ⟨fun c => Cert.KernelIdeal.Result.hiddenArr m c, fun c => Cert.KernelIdeal.Result.cellArr m c,
    Cert.KernelIdeal.Result.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10⟩ := hagree c
    rw [Cert.ReferenceIdeal.Read.val_main_v34_eq, Cert.ReferenceIdeal.Cell.hidden_eq, a0, a1, a2, a3, a4, a5, a6, a7, a8, a9, a10]
  · obtain ⟨a0, a1, a2, a3, a4, a5, a6, a7, a8, a9, a10⟩ := hagree c
    rw [Cert.ReferenceIdeal.Read.val_main_v32_eq, Cert.ReferenceIdeal.Cell.cell_eq, a0, a1, a2, a3, a4, a5, a6, a9, a10]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
